-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S64 .f32) (main_arg7 : FVec F S64x16 .f32) (main_arg8 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg7
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x64 .f32) (main_arg4 : FVec F S64 .f32) (main_arg5 : FVec F S64x64 .f32) (main_arg6 : FVec F S64 .f32) (main_arg7 : FVec F S64x16 .f32) (main_arg8 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1600000x64 : Shape := ⟨2, ![1600000, 64]⟩
abbrev S1x64 : Shape := ⟨2, ![1, 64]⟩
abbrev S100000x16 : Shape := ⟨2, ![100000, 16]⟩
abbrev S5000x16 : Shape := ⟨2, ![5000, 16]⟩
abbrev S1600000x16 : Shape := ⟨2, ![1600000, 16]⟩
abbrev S1x16 : Shape := ⟨2, ![1, 16]⟩

abbrev nBuf : Space → Nat
  | .hbm => 123
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000, .f32⟩
  | .hbm, ⟨30, _⟩ => ⟨S100000x1, .f32⟩
  | .hbm, ⟨31, _⟩ => ⟨S100000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S_, .f32⟩
  | .hbm, ⟨48, _⟩ => ⟨S1600000, .f32⟩
  | .hbm, ⟨49, _⟩ => ⟨S_, .f32⟩
  | .hbm, ⟨50, _⟩ => ⟨S100000, .f32⟩
  | .hbm, ⟨51, _⟩ => ⟨S1600000x1, .i32⟩
  | .hbm, ⟨52, _⟩ => ⟨S100000, .f32⟩
  | .hbm, ⟨53, _⟩ => ⟨S_, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S1600000x1, .i32⟩
  | .hbm, ⟨60, _⟩ => ⟨S100000, .f32⟩
  | .hbm, ⟨61, _⟩ => ⟨S_, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x64, .f32⟩
  | .hbm, ⟨79, _⟩ => ⟨S_, .f32⟩
  | .hbm, ⟨80, _⟩ => ⟨S100000x64, .f32⟩
  | .hbm, ⟨81, _⟩ => ⟨S1600000x1, .i32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S_, .f32⟩
  | .hbm, ⟨86, _⟩ => ⟨S1600000, .f32⟩
  | .hbm, ⟨87, _⟩ => ⟨S_, .f32⟩
  | .hbm, ⟨88, _⟩ => ⟨S100000, .f32⟩
  | .hbm, ⟨89, _⟩ => ⟨S1600000x1, .i32⟩
  | .hbm, ⟨90, _⟩ => ⟨S100000, .f32⟩
  | .hbm, ⟨91, _⟩ => ⟨S_, .f32⟩
  | .hbm, ⟨92, _⟩ => ⟨S_, .f32⟩
  | .hbm, ⟨93, _⟩ => ⟨S100000, .f32⟩
  | .hbm, ⟨94, _⟩ => ⟨S100000, .f32⟩
  | .hbm, ⟨95, _⟩ => ⟨S_, .f32⟩
  | .hbm, ⟨96, _⟩ => ⟨S100000, .f32⟩
  | .hbm, ⟨97, _⟩ => ⟨S1600000x1, .i32⟩
  | .hbm, ⟨98, _⟩ => ⟨S100000, .f32⟩
  | .hbm, ⟨99, _⟩ => ⟨S_, .f32⟩
  | .hbm, ⟨100, _⟩ => ⟨S_, .f32⟩
  | .hbm, ⟨101, _⟩ => ⟨S100000, .f32⟩
  | .hbm, ⟨102, _⟩ => ⟨S100000, .f32⟩
  | .hbm, ⟨103, _⟩ => ⟨S100000, .f32⟩
  | .hbm, ⟨104, _⟩ => ⟨S100000x1, .f32⟩
  | .hbm, ⟨105, _⟩ => ⟨S100000, .f32⟩
  | .hbm, ⟨106, _⟩ => ⟨S100000x1, .f32⟩
  | .hbm, ⟨107, _⟩ => ⟨S100000x16, .f32⟩
  | .hbm, ⟨108, _⟩ => ⟨S_, .i32⟩
  | .hbm, ⟨109, _⟩ => ⟨S1600000, .i32⟩
  | .hbm, ⟨110, _⟩ => ⟨S1600000, .i1⟩
  | .hbm, ⟨111, _⟩ => ⟨S_, .i32⟩
  | .hbm, ⟨112, _⟩ => ⟨S1600000, .i32⟩
  | .hbm, ⟨113, _⟩ => ⟨S1600000, .i32⟩
  | .hbm, ⟨114, _⟩ => ⟨S1600000, .i32⟩
  | .hbm, ⟨115, _⟩ => ⟨S1600000x1, .i32⟩
  | .hbm, ⟨116, _⟩ => ⟨S1600000x16, .f32⟩
  | .hbm, ⟨117, _⟩ => ⟨S_, .f32⟩
  | .hbm, ⟨118, _⟩ => ⟨S100000x16, .f32⟩
  | .hbm, ⟨119, _⟩ => ⟨S1600000x1, .i32⟩
  | .hbm, ⟨120, _⟩ => ⟨S100000x16, .f32⟩
  | .hbm, ⟨121, _⟩ => ⟨S1x16, .f32⟩
  | .hbm, ⟨122, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S5000x1, .f32⟩
  | .local _ .vmem, ⟨11, _⟩ => ⟨S5000x1, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S5000x1, .f32⟩
  | .local _ .vmem, ⟨25, _⟩ => ⟨S5000x1, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x16, .f32⟩
  | .local _ .vmem, ⟨31, _⟩ => ⟨S5000x1, .f32⟩
  | .local _ .vmem, ⟨32, _⟩ => ⟨S5000x1, .f32⟩
  | .local _ .vmem, ⟨33, _⟩ => ⟨S5000x16, .f32⟩
  | .local _ .vmem, ⟨34, _⟩ => ⟨S5000x16, .f32⟩
  | .local _ .vmem, ⟨35, _⟩ => ⟨S5000x16, .f32⟩
  | .local _ .vmem, ⟨36, _⟩ => ⟨S5000x16, .f32⟩
  | .local _ .vmem, ⟨37, _⟩ => ⟨S1x16, .f32⟩
  | .local _ .vmem, ⟨38, _⟩ => ⟨S5000x1, .f32⟩
  | .local _ .vmem, ⟨39, _⟩ => ⟨S5000x1, .f32⟩
  | .local _ .vmem, ⟨40, _⟩ => ⟨S5000x16, .f32⟩
  | .local _ .vmem, ⟨41, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_cst_7 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_8 : Ref sig .tc := ⟨.hbm, 53, rfl⟩
abbrev main_call2_v0 : Ref sig .tc := ⟨.hbm, 54, rfl⟩
abbrev main_call2_v1 : Ref sig .tc := ⟨.hbm, 55, rfl⟩
abbrev main_v30 : Ref sig .tc := ⟨.hbm, 56, rfl⟩
abbrev main_cst_9 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_10 : Ref sig .tc := ⟨.hbm, 61, rfl⟩
abbrev main_call3_v0 : Ref sig .tc := ⟨.hbm, 62, rfl⟩
abbrev main_call3_v1 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_c_11 : Ref sig .tc := ⟨.hbm, 70, rfl⟩
abbrev main_v40 : Ref sig .tc := ⟨.hbm, 71, rfl⟩
abbrev main_v41 : Ref sig .tc := ⟨.hbm, 72, rfl⟩
abbrev main_c_12 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_13 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_14 : Ref sig .tc := ⟨.hbm, 85, rfl⟩
abbrev main_v52 : Ref sig .tc := ⟨.hbm, 86, rfl⟩
abbrev main_cst_15 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_16 : Ref sig .tc := ⟨.hbm, 91, rfl⟩
abbrev main_call4_v0 : Ref sig .tc := ⟨.hbm, 92, rfl⟩
abbrev main_call4_v1 : Ref sig .tc := ⟨.hbm, 93, rfl⟩
abbrev main_v56 : Ref sig .tc := ⟨.hbm, 94, rfl⟩
abbrev main_cst_17 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_18 : Ref sig .tc := ⟨.hbm, 99, rfl⟩
abbrev main_call5_v0 : Ref sig .tc := ⟨.hbm, 100, rfl⟩
abbrev main_call5_v1 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_c_19 : Ref sig .tc := ⟨.hbm, 108, rfl⟩
abbrev main_v66 : Ref sig .tc := ⟨.hbm, 109, rfl⟩
abbrev main_v67 : Ref sig .tc := ⟨.hbm, 110, rfl⟩
abbrev main_c_20 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_21 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x16_S64x16_0_0 : ∀ a, (![0, 0] : Fin 2 → Nat) a + S64x16.size a ≤ S64x16.size a
  h_S64x16 : 0 < S64x16.numel
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x16_S5000x16_1_0_0_1_n_n_wf : DotDims.WF S5000x64 S64x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .f32 = 32 ∨ (Rect.block (s := S100000x1) S5000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x16.size a ≤ S64x16.size a
  hwx4_1 : ∀ i : grid4.Coords, EltTy.bits .f32 = 32 ∨ (Rect.block (s := S64x16) S64x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x16.size a ≤ S100000x16.size a
  hwx4_3 : ∀ i : grid4.Coords, EltTy.bits .f32 = 32 ∨ (Rect.block (s := S100000x16) S5000x16.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S100000x16.size a
  hwx5_0 : ∀ i : grid5.Coords, EltTy.bits .f32 = 32 ∨ (Rect.block (s := S100000x16) S5000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x16.size a ≤ S100000x16.size a
  hwx5_3 : ∀ i : grid5.Coords, EltTy.bits .f32 = 32 ∨ (Rect.block (s := S100000x16) S5000x16.size (cc5_transform_3 i) (hinb5_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v51) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v51) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v65) S5000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v75) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v64) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v77) S5000x16.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S100000x1 : Shape := ⟨2, ![100000, 1]⟩
abbrev S1600000x64 : Shape := ⟨2, ![1600000, 64]⟩
abbrev S1x64 : Shape := ⟨2, ![1, 64]⟩
abbrev S100000x16 : Shape := ⟨2, ![100000, 16]⟩
abbrev S1600000x16 : Shape := ⟨2, ![1600000, 16]⟩
abbrev S1x16 : Shape := ⟨2, ![1, 16]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x64, .f32⟩
  | 4 => ⟨S64, .f32⟩
  | 5 => ⟨S64x64, .f32⟩
  | 6 => ⟨S64, .f32⟩
  | 7 => ⟨S64x16, .f32⟩
  | 8 => ⟨S16, .f32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S_, .f32⟩
  | 17 => ⟨S100000, .f32⟩
  | 18 => ⟨S100000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S_, .f32⟩
  | 25 => ⟨S100000, .f32⟩
  | 26 => ⟨S100000, .f32⟩
  | 27 => ⟨S100000x64, .f32⟩
  | 28 => ⟨S100000, .f32⟩
  | 29 => ⟨S100000x1, .f32⟩
  | 30 => ⟨S100000x64, .f32⟩
  | 31 => ⟨S100000x64, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .f32⟩
  | 41 => ⟨S_, .f32⟩
  | 42 => ⟨S100000x64, .f32⟩
  | 43 => ⟨S1600000x1, .i32⟩
  | 44 => ⟨S100000x64, .f32⟩
  | 45 => ⟨S100000, .f32⟩
  | 46 => ⟨S100000x1, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S_, .f32⟩
  | 56 => ⟨S1600000, .f32⟩
  | 57 => ⟨S_, .f32⟩
  | 58 => ⟨S100000, .f32⟩
  | 59 => ⟨S1600000x1, .i32⟩
  | 60 => ⟨S100000, .f32⟩
  | 61 => ⟨S_, .f32⟩
  | 62 => ⟨S_, .f32⟩
  | 63 => ⟨S100000, .f32⟩
  | 64 => ⟨S100000, .f32⟩
  | 65 => ⟨S_, .f32⟩
  | 66 => ⟨S100000, .f32⟩
  | 67 => ⟨S1600000x1, .i32⟩
  | 68 => ⟨S100000, .f32⟩
  | 69 => ⟨S_, .f32⟩
  | 70 => ⟨S_, .f32⟩
  | 71 => ⟨S100000, .f32⟩
  | 72 => ⟨S100000, .f32⟩
  | 73 => ⟨S100000, .f32⟩
  | 74 => ⟨S100000x1, .f32⟩
  | 75 => ⟨S100000x64, .f32⟩
  | 76 => ⟨S100000x64, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x64, .f32⟩
  | 86 => ⟨S_, .f32⟩
  | 87 => ⟨S100000x64, .f32⟩
  | 88 => ⟨S1600000x1, .i32⟩
  | 89 => ⟨S100000x64, .f32⟩
  | 90 => ⟨S100000, .f32⟩
  | 91 => ⟨S100000x1, .f32⟩
  | 92 => ⟨S100000x64, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S_, .f32⟩
  | 99 => ⟨S100000x64, .f32⟩
  | 100 => ⟨S100000x64, .f32⟩
  | 101 => ⟨S_, .f32⟩
  | 102 => ⟨S1600000, .f32⟩
  | 103 => ⟨S_, .f32⟩
  | 104 => ⟨S100000, .f32⟩
  | 105 => ⟨S1600000x1, .i32⟩
  | 106 => ⟨S100000, .f32⟩
  | 107 => ⟨S_, .f32⟩
  | 108 => ⟨S_, .f32⟩
  | 109 => ⟨S100000, .f32⟩
  | 110 => ⟨S100000, .f32⟩
  | 111 => ⟨S_, .f32⟩
  | 112 => ⟨S100000, .f32⟩
  | 113 => ⟨S1600000x1, .i32⟩
  | 114 => ⟨S100000, .f32⟩
  | 115 => ⟨S_, .f32⟩
  | 116 => ⟨S_, .f32⟩
  | 117 => ⟨S100000, .f32⟩
  | 118 => ⟨S100000, .f32⟩
  | 119 => ⟨S100000x16, .f32⟩
  | 120 => ⟨S100000, .f32⟩
  | 121 => ⟨S100000x1, .f32⟩
  | 122 => ⟨S100000x16, .f32⟩
  | 123 => ⟨S100000x16, .f32⟩
  | 124 => ⟨S_, .i32⟩
  | 125 => ⟨S1600000, .i32⟩
  | 126 => ⟨S1600000, .i1⟩
  | 127 => ⟨S_, .i32⟩
  | _ => ⟨S100000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x16, .f32⟩
  | 5 => ⟨S_, .f32⟩
  | 6 => ⟨S100000x16, .f32⟩
  | 7 => ⟨S1600000x1, .i32⟩
  | 8 => ⟨S100000x16, .f32⟩
  | 9 => ⟨S100000, .f32⟩
  | 10 => ⟨S100000x1, .f32⟩
  | 11 => ⟨S100000x16, .f32⟩
  | 12 => ⟨S100000x16, .f32⟩
  | 13 => ⟨S1x16, .f32⟩
  | 14 => ⟨S100000x16, .f32⟩
  | 15 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_8 : Ref sig .tc := ⟨.hbm, 61, rfl⟩
abbrev main_call3_v0 : Ref sig .tc := ⟨.hbm, 62, rfl⟩
abbrev main_call3_v1 : Ref sig .tc := ⟨.hbm, 63, rfl⟩
abbrev main_v36 : Ref sig .tc := ⟨.hbm, 64, rfl⟩
abbrev main_cst_9 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_10 : Ref sig .tc := ⟨.hbm, 69, rfl⟩
abbrev main_call4_v0 : Ref sig .tc := ⟨.hbm, 70, rfl⟩
abbrev main_call4_v1 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_11 : Ref sig .tc := ⟨.hbm, 77, rfl⟩
abbrev main_v45 : Ref sig .tc := ⟨.hbm, 78, rfl⟩
abbrev main_v46 : Ref sig .tc := ⟨.hbm, 79, rfl⟩
abbrev main_c_12 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_13 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_call5_cst : Ref sig .tc := ⟨.hbm, 98, rfl⟩
abbrev main_call5_v0 : Ref sig .tc := ⟨.hbm, 99, rfl⟩
abbrev main_v63 : Ref sig .tc := ⟨.hbm, 100, rfl⟩
abbrev main_cst_14 : Ref sig .tc := ⟨.hbm, 101, rfl⟩
abbrev main_v64 : Ref sig .tc := ⟨.hbm, 102, rfl⟩
abbrev main_cst_15 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_16 : Ref sig .tc := ⟨.hbm, 107, rfl⟩
abbrev main_call6_v0 : Ref sig .tc := ⟨.hbm, 108, rfl⟩
abbrev main_call6_v1 : Ref sig .tc := ⟨.hbm, 109, rfl⟩
abbrev main_v68 : Ref sig .tc := ⟨.hbm, 110, rfl⟩
abbrev main_cst_17 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_18 : Ref sig .tc := ⟨.hbm, 115, rfl⟩
abbrev main_call7_v0 : Ref sig .tc := ⟨.hbm, 116, rfl⟩
abbrev main_call7_v1 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_c_19 : Ref sig .tc := ⟨.hbm, 124, rfl⟩
abbrev main_v78 : Ref sig .tc := ⟨.hbm, 125, rfl⟩
abbrev main_v79 : Ref sig .tc := ⟨.hbm, 126, rfl⟩
abbrev main_c_20 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_21 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000x1_S100000x16_0_1 : S100000x1.BroadcastsInDim S100000x16 (![0, 1] : Fin 2 → Fin S100000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

class Facts : Prop extends Facts₀ where

variable [Facts]
-- ==== Proof.Spec.lean ====
/-
  The three graph-convolution layers as functions of whole arrays, index by index, over the extended reals.

  A layer is  out = act( D_in^{-1/2} A (D_out^{-1/2} x) W + b ).  The two programs agree on everything that
  depends on the edge lists (the degree vectors and the neighbour aggregation h ↦ A h), so those enter here as
  parameters: so, si are the columns D_out^{-1/2}, D_in^{-1/2} (an [n, 1] array each), agg is h ↦ A h.
  What is left is dense and row-wise: a product with a weight matrix, a scaling of row r by the column's entry at r,
  a bias row added to every row, and the maximum with zero.  Each stage below is one of the dense pieces the
  layers are cut into; net composes them in the order the layers apply them (the matrix product first when the
  layer narrows the features, last otherwise).
-/
import Idealize.ShloMosaic.PureOps.Ideal
import Idealize.ShloMosaic.Lib.ValueIdx

noncomputable section

namespace Cert.Gcn

open Idealize.ShloMosaic Idealize.ShloMosaic.ValueIdx

/-- A float matrix of a rows and b columns at the exact instance. -/
abbrev Mat (a b : ℕ) : Type := FVec Ideal (⟨2, ![a, b]⟩ : Shape) .f32

/-- The zero every rectifier compares with: the all-zero word, kept as a word. -/
abbrev zeroWord : EReal := Ideal.ofBits .f32 0x00000000#32

/-- Rows times a weight matrix, row r of the product then scaled by the column's entry at r:
    (∑ₖ x[r,k] · w[k,c]) · s[r]. -/
def matScale {n K M : ℕ} (x : Mat n K) (w : Mat K M) (s : Mat n 1) : Mat n M :=
  fun i => (∑ k : Fin K, x (ix2 (i 0) k) * w (ix2 k (i 1))) * s (ix2 (i 0) (0 : Fin 1))

/-- Row r scaled by the column's entry at r: a[r,c] · s[r]. -/
def scale {n M : ℕ} (a : Mat n M) (s : Mat n 1) : Mat n M :=
  fun i => a i * s (ix2 (i 0) (0 : Fin 1))

/-- Scaled rows plus the bias row: a[r,c] · s[r] + b[c]. -/
def scaleBias {n M : ℕ} (a : Mat n M) (b : Mat 1 M) (s : Mat n 1) : Mat n M :=
  fun i => a i * s (ix2 (i 0) (0 : Fin 1)) + b (ix2 (0 : Fin 1) (i 1))

/-- The same, rectified: max (a[r,c] · s[r] + b[c]) 0. -/
def scaleBiasRelu {n M : ℕ} (a : Mat n M) (b : Mat 1 M) (s : Mat n 1) : Mat n M :=
  fun i => max (a i * s (ix2 (i 0) (0 : Fin 1)) + b (ix2 (0 : Fin 1) (i 1))) zeroWord

/-- Scaled rows times a weight matrix, plus the bias row, rectified:
    max ((∑ₖ (a[r,k] · s[r]) · w[k,c]) + b[c]) 0. -/
def scaleMatBiasRelu {n K M : ℕ} (a : Mat n K) (w : Mat K M) (b : Mat 1 M) (s : Mat n 1) : Mat n M :=
  fun i => max ((∑ k : Fin K, (a (ix2 (i 0) k) * s (ix2 (i 0) (0 : Fin 1))) * w (ix2 k (i 1))) + b (ix2 (0 : Fin 1) (i 1))) zeroWord

/-- The three layers: 128 → 64 features (product first), 64 → 64 (product last), 64 → 16 (product first, no
    rectifier), each around one neighbour aggregation. -/
def net {n : ℕ} (agg64 : Mat n 64 → Mat n 64) (agg16 : Mat n 16 → Mat n 16) (so si : Mat n 1)
    (x : Mat n 128) (w0 : Mat 128 64) (b0 : Mat 1 64) (w1 : Mat 64 64) (b1 : Mat 1 64) (w2 : Mat 64 16) (b2 : Mat 1 16) :
    Mat n 16 :=
  scaleBias (agg16 (matScale
    (scaleMatBiasRelu (agg64 (scale
      (scaleBiasRelu (agg64 (matScale x w0 so)) b0 si) so)) w1 b1 si) w2 so)) b2 si

end Cert.Gcn

end
-- ==== Proof.KI.HostDefs.lean ====
/-
  The host-side pieces of the kernel program that depend on the edge lists, named once: the degree factor
  D^{-1/2} of an edge-end list as a column, a bias vector as a row, and the neighbour aggregation h ↦ A h
  (gather the rows at the edges' sources, add each into the row of the edge's destination).
-/
import proofs.«168125_j30279519437683_1_alg».proof.Proof.Gen.KernelIdeal.Frame
import proofs.«168125_j30279519437683_1_alg».proof.Proof.Spec

noncomputable section

namespace Cert.KernelIdeal.Val

open Cert.KernelIdeal Cert.KernelIdeal.Gen Idealize.ShloMosaic Idealize.ShloMosaic.TcCoe Idealize.SL.Sem

/-- An edge-end list: one node number per edge. -/
abbrev Ends : Type := (⟨S1600000, .i32⟩ : BufTy).Contents (Elt Ideal)

/-- One over the root of max(1, the number of edges with this end at the node), node by node. -/
def deg (x : Ends) : FVec Ideal S100000 .f32 :=
  Host.rsqrt (maximumf (broadcastInDim S100000 ![] bcast_S_S100000 (id (constant (F := Ideal) S_ .f32 0x3F800000#32)))
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 x)
      (broadcastInDim S1600000 ![] bcast_S_S1600000 (constant (F := Ideal) S_ .f32 0x3F800000#32))))

/-- The degree factors as a column. -/
def col (x : Ends) : Gcn.Mat 100000 1 := shapeCast S100000x1 (deg x) shapeCasts_S100000_S100000x1

/-- A bias vector as a row. -/
def row64 (b : FVec Ideal S64 .f32) : Gcn.Mat 1 64 := shapeCast S1x64 b shapeCasts_S64_S1x64
def row16 (b : FVec Ideal S16 .f32) : Gcn.Mat 1 16 := shapeCast S1x16 b shapeCasts_S16_S1x16

/-- A source list with negative entries wrapped around once (numpy's indexing convention). -/
def wrap (x : Ends) : Ends :=
  select (cmpi .slt x (broadcastInDim S1600000 ![] bcast_S_S1600000 (constantI S_ 32 0#32)))
    (addi x (broadcastInDim S1600000 ![] bcast_S_S1600000 (constantI S_ 32 100000#32))) x

/-- h ↦ A h on 64 features: row dst[e] of the result collects row src[e] of h over the edges e. -/
def agg64 (src dst : Ends) (h : Gcn.Mat 100000 64) : Gcn.Mat 100000 64 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0 (wrap src)))

/-- The same on 16 features. -/
def agg16 (src dst : Ends) (h : Gcn.Mat 100000 16) : Gcn.Mat 100000 16 :=
  Host.scatterAdd scatter_S100000x16_S1600000x1_S1600000x16_1_0_0_1
    (broadcastInDim S100000x16 ![] bcast_S_S100000x16 (constant (F := Ideal) S_ .f32 0x00000000#32))
    (broadcastInDim S1600000x1 ![0] bcast_S1600000_S1600000x1_0 dst)
    (Host.gather gather_S100000x16_S1600000x1_S1600000x16_1_0_n_n_0_1_116 h
      (broadcastInDim S1600000x1 ![0] bcast_S1600000_S1600000x1_0 (wrap src)))

end Cert.KernelIdeal.Val

end
-- ==== Proof.LibColumnBroadcast.lean ====
/-
  One column broadcast over many: a `[a, 1]` array broadcast to `[a, b]` read at an index. The companion of the
  library's row form (one `[1, b]` row broadcast over `a` rows): there the unit axis is the leading one, here
  the trailing one.
-/
import Idealize.ShloMosaic.Lib.ValueLayout

namespace Idealize.ShloMosaic.ValueIdx

open Idealize.ShloMosaic

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.KI.Region0.lean ====
/-
  The first layer's first dense piece: the node features times the first weight matrix, each row of the product then
  scaled by the node's out-degree factor.  One grid point handles 5000 consecutive rows; point t reads rows
  5000·t … 5000·t + 4999 of the features and of the factor column and the whole weight matrix, and writes the same
  rows of the result, so the twenty points' blocks tile the array and it ends holding, at (r, c),
  (∑ₖ x[r,k] · w[k,c]) · factor of row r.
-/
import proofs.«168125_j30279519437683_1_alg».proof.Proof.Gen.KernelIdeal.Frame
import Idealize.ShloMosaic.Lib.Pipeline.Value
import proofs.«168125_j30279519437683_1_alg».proof.Proof.Spec
import proofs.«168125_j30279519437683_1_alg».proof.Proof.LibColumnBroadcast
import proofs.«168125_j30279519437683_1_alg».proof.Proof.LibPlainDot

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The three arrays the region reads, at their literal types: the node features, the weight matrix and the factor column. -/
abbrev feat0 (c : Dev nD) : Gcn.Mat 100000 128 := V c main_arg0
abbrev wts0 (c : Dev nD) : Gcn.Mat 128 64 := V c main_arg3
abbrev fac0 (c : Dev nD) : Gcn.Mat 100000 1 := V c main_v10

theorem zero_offsets0 : (![0, 0] : Fin 2 → Nat) = fun _ => 0 := funext fun a => by fin_cases a <;> rfl

/-- The block product's dimension numbers are the plain rows-by-columns ones. -/
theorem dims0_plain : dot_S5000x128_S128x64_S5000x64_1_0_0_1_n_n = DotDims.plain 5000 128 64 := rfl

/-- The body's value at (p, q): the loaded rows times the loaded weights, summed over the 128 features, times the loaded
    factor at (p, 0).  The change of float format before the product is the identity on exact values. -/
theorem body0_apply (x0 : Vec Ideal S5000x128 .f32) (x1 : Vec Ideal S128x64 .f32) (x2 : Vec Ideal S5000x1 .f32) (j : S5000x64.Idx) :
    k0_pay1 x0 x1 x2 j = (∑ k : Fin 128, x0 (ix2 (j 0) k) * x1 (ix2 k (j 1))) * x2 (ix2 (j 0) (0 : Fin 1)) := by
  obtain ⟨p, q, rfl⟩ : ∃ (p : Fin 5000) (q : Fin 64), j = ix2 p q := ⟨j 0, j 1, eq_ix2 j⟩
  unfold k0_pay1
  show matmul (F := Ideal) dot_S5000x128_S128x64_S5000x64_1_0_0_1_n_n none (truncf .bf16 x0 bitsLt_bf16_f32) (truncf .bf16 x1 bitsLt_bf16_f32) (constant (F := Ideal) S5000x64 .f32 0x00000000#32) (ix2 p q)
      * broadcastTo S5000x64 (shapeCast S5000x1 x2 shapeCasts_S5000x1_S5000x1) broadcasts_S5000x1_S5000x64 (ix2 p q) = _
  rw [broadcastTo_a1_ab_apply, shapeCast_self, dims0_plain]
  refine congrArg (· * x2 (ix2 p (0 : Fin 1))) ?_
  exact plain_matmul_zero_apply none (truncf .bf16 x0 bitsLt_bf16_f32) (truncf .bf16 x1 bitsLt_bf16_f32) (ix2 p q)

/-- Where the windows sit at point t: the features, the factor column and the result at row block t, the weights whole. -/
theorem index_maps0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the whole-array function. -/
theorem flushed0 (c : Dev nD) (t : Fin cfg0.N) :
    (dat0 V c).flushed 3 t
      = ((cfg0.win 3).blk t).view.read (Elt Ideal) (Gcn.matScale (V c main_arg0) (V c main_arg3) (V c main_v10)) := by
  show (cfg0.win 3).cut (grid0.coords t) ((dat0 V c).after 3 t) = _
  rw [after0_3]
  unfold out0_3
  rw [View.canon_unit_zero zero_offsets0]
  simp only [View.ld_unit_zero (S := S5000x128) zero_offsets0, View.ld_unit_zero (S := S128x64) zero_offsets0, View.ld_unit_zero (S := S5000x1) zero_offsets0]
  obtain ⟨e0, e1, e2, e3, e4, e5, e6, e7⟩ := index_maps0 t
  funext j
  refine (body0_apply (iblk0 V c 0 t) (iblk0 V c 1 t) (iblk0 V c 2 t) j).trans ?_
  show _ = (∑ k : Fin 128, feat0 V c (ix2 ((((cfg0.win 3).blk t).view.emb j) 0) k) * wts0 V c (ix2 k ((((cfg0.win 3).blk t).view.emb j) 1)))
      * fac0 V c (ix2 ((((cfg0.win 3).blk t).view.emb j) 0) (0 : Fin 1))
  have hX : ∀ k : Fin 128, iblk0 V c 0 t (ix2 (j 0) k) = feat0 V c (ix2 ((((cfg0.win 3).blk t).view.emb j) 0) k) := fun k => by
    show feat0 V c (((cfg0.win 0).blk t).view.emb (ix2 (j 0) k)) = _
    refine congrArg (feat0 V c) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  have hW : ∀ k : Fin 128, iblk0 V c 1 t (ix2 k (j 1)) = wts0 V c (ix2 k ((((cfg0.win 3).blk t).view.emb j) 1)) := fun k => by
    show wts0 V c (((cfg0.win 1).blk t).view.emb (ix2 k (j 1))) = _
    refine congrArg (wts0 V c) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_3.index t (1 : Fin 2) * 64 + 1 * (j 1).val; omega
  have hS : iblk0 V c 2 t (ix2 (j 0) (0 : Fin 1)) = fac0 V c (ix2 ((((cfg0.win 3).blk t).view.emb j) 0) (0 : Fin 1)) := by
    show fac0 V c (((cfg0.win 2).blk t).view.emb (ix2 (j 0) (0 : Fin 1))) = _
    refine congrArg (fac0 V c) (funext fun a => Fin.ext ?_)
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega
  exact congrArg₂ (· * ·) (Finset.sum_congr rfl fun k _ => congrArg₂ (· * ·) (hX k) (hW k)) hS

/-- An index of the result is in point t's block iff each coordinate is in the block's range on its axis. -/
theorem mem_block0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v13).slice (win0_3.rect t)).set ↔ _
  rw [View.set_slice_whole, Rect.mem_set_unit]
  exact Iff.rfl

/-- Row r lies in the block of point r / 5000: the twenty blocks tile the array. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  refine ⟨⟨(i 0).val / 5000, by rw [show cfg0.N = 20 from N_0]; omega⟩, flush0_3 _, ?_⟩
  obtain ⟨-, -, -, -, -, -, e6, e7⟩ := index_maps0 ⟨(i 0).val / 5000, by rw [show cfg0.N = 20 from N_0]; omega⟩
  rw [mem_block0]
  intro a
  match a with
  | ⟨0, _⟩ => show win0_3.index _ (0 : Fin 2) * 5000 ≤ (i 0).val ∧ (i 0).val < win0_3.index _ (0 : Fin 2) * 5000 + 5000; rw [e6]; show (i 0).val / 5000 * 5000 ≤ (i 0).val ∧ (i 0).val < (i 0).val / 5000 * 5000 + 5000; omega
  | ⟨1, _⟩ => show win0_3.index _ (1 : Fin 2) * 64 ≤ (i 1).val ∧ (i 1).val < win0_3.index _ (1 : Fin 2) * 64 + 64; rw [e7]; omega

/-- After the region the result array is the whole-array function of what the region found. -/
theorem arr0 (c : Dev nD) :
    (dat0 V c).arrAt 3 cfg0.N = Gcn.matScale (V c main_arg0) (V c main_arg3) (V c main_v10) :=
  (dat0 V c).arrAt_eq_of_cover 3 (Gcn.matScale (V c main_arg0) (V c main_arg3) (V c main_v10)) (fun t _ => flushed0 V c t) cover0

end Cert.KernelIdeal.Val

end
-- ==== Proof.KI.Region1.lean ====
/-
  The first layer's closing piece: the aggregated 64 features of every node scaled by the node's in-degree factor, plus
  the bias row, rectified.  One grid point handles 5000 consecutive rows; point t reads rows 5000·t … 5000·t + 4999 of
  the features and of the factor column and the whole bias row, and writes the same rows of the result, so the twenty
  points' blocks tile the array and it ends holding, at (r, c), max (feature · factor of row r + bias of column c) 0.
-/
import proofs.«168125_j30279519437683_1_alg».proof.Proof.Gen.KernelIdeal.Frame
import Idealize.ShloMosaic.Lib.Pipeline.Value
import proofs.«168125_j30279519437683_1_alg».proof.Proof.Spec
import proofs.«168125_j30279519437683_1_alg».proof.Proof.LibColumnBroadcast
import proofs.«168125_j30279519437683_1_alg».proof.Proof.LibPlainDot

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The three arrays the region reads, at their literal types: the aggregated features, the bias row and the factor column. -/
abbrev feat1 (c : Dev nD) : Gcn.Mat 100000 64 := V c main_v23
abbrev bias1 (c : Dev nD) : Gcn.Mat 1 64 := V c main_v24
abbrev fac1 (c : Dev nD) : Gcn.Mat 100000 1 := V c main_v12

theorem zero_offsets1 : (![0, 0] : Fin 2 → Nat) = fun _ => 0 := funext fun a => by fin_cases a <;> rfl

/-- The body's value at (p, q): the loaded feature at (p, q) times the loaded factor at (p, 0), plus the loaded bias at (0, q),
    and the maximum of that with zero. -/
theorem body1_apply (x0 : Vec Ideal S5000x64 .f32) (x2 : Vec Ideal S5000x1 .f32) (x6 : Vec Ideal S1x64 .f32) (j : S5000x64.Idx) :
    k1_pay1 x0 x2 x6 j = max (x0 j * x2 (ix2 (j 0) (0 : Fin 1)) + x6 (ix2 (0 : Fin 1) (j 1))) Gcn.zeroWord := by
  obtain ⟨p, q, rfl⟩ : ∃ (p : Fin 5000) (q : Fin 64), j = ix2 p q := ⟨j 0, j 1, eq_ix2 j⟩
  unfold k1_pay1
  show max (shapeCast S5000x64 x0 shapeCasts_S5000x64_S5000x64 (ix2 p q)
      * broadcastTo S5000x64 (shapeCast S5000x1 x2 shapeCasts_S5000x1_S5000x1) broadcasts_S5000x1_S5000x64 (ix2 p q)
      + broadcastTo S5000x64 (shapeCast S1x64 x6 shapeCasts_S1x64_S1x64) broadcasts_S1x64_S5000x64 (ix2 p q)) (Ideal.ofBits .f32 0x00000000#32) = _
  rw [broadcastTo_a1_ab_apply, broadcastTo_1b_ab_apply, shapeCast_self, shapeCast_self, shapeCast_self]

/-- Where the windows sit at point t: the features, the factor column and the result at row block t, the bias row fixed. -/
theorem index_maps1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point t writes back is block t of the whole-array function. -/
theorem flushed1 (c : Dev nD) (t : Fin cfg1.N) :
    (dat1 V c).flushed 3 t
      = ((cfg1.win 3).blk t).view.read (Elt Ideal) (Gcn.scaleBiasRelu (V c main_v23) (V c main_v24) (V c main_v12)) := by
  show (cfg1.win 3).cut (grid1.coords t) ((dat1 V c).after 3 t) = _
  rw [after1_3]
  unfold out1_3
  rw [View.canon_unit_zero zero_offsets1]
  simp only [View.ld_unit_zero (S := S5000x64) zero_offsets1, View.ld_unit_zero (S := S5000x1) zero_offsets1, View.ld_unit_zero (S := S1x64) zero_offsets1]
  obtain ⟨e0, e1, e2, e3, e4, e5, e6, e7⟩ := index_maps1 t
  funext j
  refine (body1_apply (iblk1 V c 0 t) (iblk1 V c 2 t) (iblk1 V c 1 t) j).trans ?_
  show _ = max (feat1 V c (((cfg1.win 3).blk t).view.emb j)
      * fac1 V c (ix2 ((((cfg1.win 3).blk t).view.emb j) 0) (0 : Fin 1))
      + bias1 V c (ix2 (0 : Fin 1) ((((cfg1.win 3).blk t).view.emb j) 1))) Gcn.zeroWord
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * (j 1).val = win1_3.index t (1 : Fin 2) * 64 + 1 * (j 1).val; omega
  have h1 : ((cfg1.win 2).blk t).view.emb (ix2 (j 0) (0 : Fin 1)) = ix2 ((((cfg1.win 3).blk t).view.emb j) 0) (0 : Fin 1) := by
    funext a; apply Fin.ext
    match a with
    | ⟨0, _⟩ => show win1_2.index t (0 : Fin 2) * 5000 + 1 * (j 0).val = win1_3.index t (0 : Fin 2) * 5000 + 1 * (j 0).val; omega
    | ⟨1, _⟩ => show win1_2.index t (1 : Fin 2) * 1 + 1 * 0 = 0; omega
  have h2 : ((cfg1.win 1).blk t).view.emb (ix2 (0 : Fin 1) (j 1)) = ix2 (0 : Fin 1) ((((cfg1.win 3).blk t).view.emb j) 1) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_3.index t (1 : Fin 2) * 64 + 1 * (j 1).val; omega
  have hA : iblk1 V c 0 t j = feat1 V c (((cfg1.win 3).blk t).view.emb j) := by
    show feat1 V c (((cfg1.win 0).blk t).view.emb j) = _
    exact congrArg (feat1 V c) h0
  have hS : iblk1 V c 2 t (ix2 (j 0) (0 : Fin 1)) = fac1 V c (ix2 ((((cfg1.win 3).blk t).view.emb j) 0) (0 : Fin 1)) := by
    show fac1 V c (((cfg1.win 2).blk t).view.emb (ix2 (j 0) (0 : Fin 1))) = _
    exact congrArg (fac1 V c) h1
  have hB : iblk1 V c 1 t (ix2 (0 : Fin 1) (j 1)) = bias1 V c (ix2 (0 : Fin 1) ((((cfg1.win 3).blk t).view.emb j) 1)) := by
    show bias1 V c (((cfg1.win 1).blk t).view.emb (ix2 (0 : Fin 1) (j 1))) = _
    exact congrArg (bias1 V c) h2
  rw [hA, hS, hB]

/-- An index of the result is in point t's block iff each coordinate is in the block's range on its axis. -/
theorem mem_block1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v25).slice (win1_3.rect t)).set ↔ _
  rw [View.set_slice_whole, Rect.mem_set_unit]
  exact Iff.rfl

/-- Row r lies in the block of point r / 5000: the twenty blocks tile the array. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  refine ⟨⟨(i 0).val / 5000, by rw [show cfg1.N = 20 from N_1]; omega⟩, flush1_3 _, ?_⟩
  obtain ⟨-, -, -, -, -, -, e6, e7⟩ := index_maps1 ⟨(i 0).val / 5000, by rw [show cfg1.N = 20 from N_1]; omega⟩
  rw [mem_block1]
  intro a
  match a with
  | ⟨0, _⟩ => show win1_3.index _ (0 : Fin 2) * 5000 ≤ (i 0).val ∧ (i 0).val < win1_3.index _ (0 : Fin 2) * 5000 + 5000; rw [e6]; show (i 0).val / 5000 * 5000 ≤ (i 0).val ∧ (i 0).val < (i 0).val / 5000 * 5000 + 5000; omega
  | ⟨1, _⟩ => show win1_3.index _ (1 : Fin 2) * 64 ≤ (i 1).val ∧ (i 1).val < win1_3.index _ (1 : Fin 2) * 64 + 64; rw [e7]; omega

/-- After the region the result array is the whole-array function of what the region found. -/
theorem arr1 (c : Dev nD) :
    (dat1 V c).arrAt 3 cfg1.N = Gcn.scaleBiasRelu (V c main_v23) (V c main_v24) (V c main_v12) :=
  (dat1 V c).arrAt_eq_of_cover 3 (Gcn.scaleBiasRelu (V c main_v23) (V c main_v24) (V c main_v12)) (fun t _ => flushed1 V c t) cover1

end Cert.KernelIdeal.Val

end
-- ==== Proof.KI.Region2.lean ====
/-
  The second layer's first dense piece: every row of the first layer's output scaled by its out-degree factor.
  One grid point handles 5000 consecutive rows; point t reads rows 5000·t … 5000·t + 4999 of the features and of the
  factor column and writes the same rows of the result, so the twenty points' blocks tile the array and the array ends
  holding, at (r, c), the feature times the factor of row r.
-/
import proofs.«168125_j30279519437683_1_alg».proof.Proof.Gen.KernelIdeal.Frame
import Idealize.ShloMosaic.Lib.Pipeline.Value
import proofs.«168125_j30279519437683_1_alg».proof.Proof.Spec
import proofs.«168125_j30279519437683_1_alg».proof.Proof.LibColumnBroadcast
import proofs.«168125_j30279519437683_1_alg».proof.Proof.LibPlainDot

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The two arrays the region reads, at their literal types: the features and the factor column. -/
abbrev feat2 (c : Dev nD) : Gcn.Mat 100000 64 := V c main_v25
abbrev fac2 (c : Dev nD) : Gcn.Mat 100000 1 := V c main_v36

theorem zero_offsets : (![0, 0] : Fin 2 → Nat) = fun _ => 0 := funext fun a => by fin_cases a <;> rfl

/-- The body's value at (p, q): the loaded feature at (p, q) times the loaded factor at (p, 0). -/
theorem scale_body_apply (x0 : Vec Ideal S5000x64 .f32) (x1 : Vec Ideal S5000x1 .f32) (j : S5000x64.Idx) :
    k2_pay1 x0 x1 j = x0 j * x1 (ix2 (j 0) (0 : Fin 1)) := by
  obtain ⟨p, q, rfl⟩ : ∃ (p : Fin 5000) (q : Fin 64), j = ix2 p q := ⟨j 0, j 1, eq_ix2 j⟩
  unfold k2_pay1
  show shapeCast S5000x64 x0 shapeCasts_S5000x64_S5000x64 (ix2 p q)
      * broadcastTo S5000x64 (shapeCast S5000x1 x1 shapeCasts_S5000x1_S5000x1) broadcasts_S5000x1_S5000x64 (ix2 p q) = _
  rw [broadcastTo_a1_ab_apply, shapeCast_self, shapeCast_self]

/-- Where the three windows sit at point t: the features, the factor column and the result all at row block t. -/
theorem scale_index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the scaled array. -/
theorem scale_flushed (c : Dev nD) (t : Fin cfg2.N) :
    (dat2 V c).flushed 2 t
      = ((cfg2.win 2).blk t).view.read (Elt Ideal) (Gcn.scale (V c main_v25) (V c main_v36)) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S5000x1) zero_offsets]
  obtain ⟨e0, e1, e2, e3, e4, e5⟩ := scale_index_maps t
  funext j
  refine (scale_body_apply (iblk2 V c 0 t) (iblk2 V c 1 t) j).trans ?_
  show _ = feat2 V c (((cfg2.win 2).blk t).view.emb j)
      * fac2 V c (ix2 ((((cfg2.win 2).blk t).view.emb j) 0) (0 : Fin 1))
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ix2 (j 0) (0 : Fin 1)) = ix2 ((((cfg2.win 2).blk t).view.emb j) 0) (0 : Fin 1) := by
    funext a; apply Fin.ext
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 1 + 1 * 0 = 0; omega
  have hL : iblk2 V c 0 t j = feat2 V c (((cfg2.win 2).blk t).view.emb j) := by
    show feat2 V c (((cfg2.win 0).blk t).view.emb j) = _
    exact congrArg (feat2 V c) h0
  have hR : iblk2 V c 1 t (ix2 (j 0) (0 : Fin 1)) = fac2 V c (ix2 ((((cfg2.win 2).blk t).view.emb j) 0) (0 : Fin 1)) := by
    show fac2 V c (((cfg2.win 1).blk t).view.emb (ix2 (j 0) (0 : Fin 1))) = _
    exact congrArg (fac2 V c) h1
  exact congrArg₂ (· * ·) hL hR

/-- An index of the result is in point t's block iff each coordinate is in the block's range on its axis. -/
theorem scale_mem_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v39).slice (win2_2.rect t)).set ↔ _
  rw [View.set_slice_whole, Rect.mem_set_unit]
  exact Iff.rfl

/-- Row r lies in the block of point r / 5000: the twenty blocks tile the array. -/
theorem scale_cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  refine ⟨⟨(i 0).val / 5000, by rw [show cfg2.N = 20 from N_2]; omega⟩, flush2_2 _, ?_⟩
  obtain ⟨-, -, -, -, e4, e5⟩ := scale_index_maps ⟨(i 0).val / 5000, by rw [show cfg2.N = 20 from N_2]; omega⟩
  rw [scale_mem_block]
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 64 ≤ (i 1).val ∧ (i 1).val < win2_2.index _ (1 : Fin 2) * 64 + 64; rw [e5]; omega

/-- After the region the result array is the scaled array of what the region found. -/
theorem arr2 (c : Dev nD) :
    (dat2 V c).arrAt 2 cfg2.N = Gcn.scale (V c main_v25) (V c main_v36) :=
  (dat2 V c).arrAt_eq_of_cover 2 (Gcn.scale (V c main_v25) (V c main_v36)) (fun t _ => scale_flushed V c t) scale_cover

end Cert.KernelIdeal.Val

end
-- ==== Proof.KI.Region3.lean ====
/-
  The second layer's closing piece: the aggregated features of every node scaled by the node's in-degree factor, times
  the second weight matrix, plus the bias row, rectified.  One grid point handles 5000 consecutive rows; point t reads
  rows 5000·t … 5000·t + 4999 of the features and of the factor column, the whole weight matrix and the whole bias row,
  and writes the same rows of the result, so the twenty points' blocks tile the array and it ends holding, at (r, c),
  max ((∑ₖ (a[r,k] · factor of row r) · w[k,c]) + bias of column c) 0.
-/
import proofs.«168125_j30279519437683_1_alg».proof.Proof.Gen.KernelIdeal.Frame
import Idealize.ShloMosaic.Lib.Pipeline.Value
import proofs.«168125_j30279519437683_1_alg».proof.Proof.Spec
import proofs.«168125_j30279519437683_1_alg».proof.Proof.LibColumnBroadcast
import proofs.«168125_j30279519437683_1_alg».proof.Proof.LibPlainDot

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The four arrays the region reads, at their literal types: the aggregated features, the weight matrix, the bias row
    and the factor column. -/
abbrev feat3 (c : Dev nD) : Gcn.Mat 100000 64 := V c main_v49
abbrev wts3 (c : Dev nD) : Gcn.Mat 64 64 := V c main_arg5
abbrev bias3 (c : Dev nD) : Gcn.Mat 1 64 := V c main_v50
abbrev fac3 (c : Dev nD) : Gcn.Mat 100000 1 := V c main_v38

theorem zero_offsets3 : (![0, 0] : Fin 2 → Nat) = fun _ => 0 := funext fun a => by fin_cases a <;> rfl

/-- The block product's dimension numbers are the plain rows-by-columns ones. -/
theorem dims3_plain : dot_S5000x64_S64x64_S5000x64_1_0_0_1_n_n = DotDims.plain 5000 64 64 := rfl

/-- The body's value at (p, q): the loaded rows, each entry times the loaded factor at (p, 0), times the loaded weights,
    summed over the 64 features, plus the loaded bias at (0, q), and the maximum of that with zero.  The change of float
    format before the product is the identity on exact values. -/
theorem body3_apply (x0 : Vec Ideal S5000x64 .f32) (x2 : Vec Ideal S5000x1 .f32) (x7 : Vec Ideal S64x64 .f32)
    (x10 : Vec Ideal S1x64 .f32) (j : S5000x64.Idx) :
    k3_pay1 x0 x2 x7 x10 j
      = max ((∑ k : Fin 64, (x0 (ix2 (j 0) k) * x2 (ix2 (j 0) (0 : Fin 1))) * x7 (ix2 k (j 1))) + x10 (ix2 (0 : Fin 1) (j 1)))
          Gcn.zeroWord := by
  obtain ⟨p, q, rfl⟩ : ∃ (p : Fin 5000) (q : Fin 64), j = ix2 p q := ⟨j 0, j 1, eq_ix2 j⟩
  unfold k3_pay1
  show max (matmul (F := Ideal) dot_S5000x64_S64x64_S5000x64_1_0_0_1_n_n none
        (truncf .bf16 (mulf (shapeCast S5000x64 x0 shapeCasts_S5000x64_S5000x64)
          (broadcastTo S5000x64 (shapeCast S5000x1 x2 shapeCasts_S5000x1_S5000x1) broadcasts_S5000x1_S5000x64)) bitsLt_bf16_f32)
        (truncf .bf16 x7 bitsLt_bf16_f32) (constant (F := Ideal) S5000x64 .f32 0x00000000#32) (ix2 p q)
      + broadcastTo S5000x64 (shapeCast S1x64 x10 shapeCasts_S1x64_S1x64) broadcasts_S1x64_S5000x64 (ix2 p q))
      (Ideal.ofBits .f32 0x00000000#32) = _
  rw [broadcastTo_1b_ab_apply, shapeCast_self, shapeCast_self, shapeCast_self, dims3_plain]
  refine congrArg (fun z => max (z + x10 (ix2 (0 : Fin 1) q)) Gcn.zeroWord) ?_
  refine (plain_matmul_zero_apply none _ _ (ix2 p q)).trans ?_
  refine Finset.sum_congr rfl fun k _ => ?_
  show (x0 (ix2 p k) * broadcastTo S5000x64 x2 broadcasts_S5000x1_S5000x64 (ix2 p k)) * x7 (ix2 k q) = _
  rw [broadcastTo_a1_ab_apply]

/-- Where the windows sit at point t: the features, the factor column and the result at row block t, the weights and the
    bias row whole. -/
theorem index_maps3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- What point t writes back is block t of the whole-array function. -/
theorem flushed3 (c : Dev nD) (t : Fin cfg3.N) :
    (dat3 V c).flushed 4 t
      = ((cfg3.win 4).blk t).view.read (Elt Ideal)
          (Gcn.scaleMatBiasRelu (V c main_v49) (V c main_arg5) (V c main_v50) (V c main_v38)) := by
  show (cfg3.win 4).cut (grid3.coords t) ((dat3 V c).after 4 t) = _
  rw [after3_4]
  unfold out3_4
  rw [View.canon_unit_zero zero_offsets3]
  simp only [View.ld_unit_zero (S := S5000x64) zero_offsets3, View.ld_unit_zero (S := S64x64) zero_offsets3,
    View.ld_unit_zero (S := S1x64) zero_offsets3, View.ld_unit_zero (S := S5000x1) zero_offsets3]
  obtain ⟨e0, e1, e2, e3, e4, e5, e6, e7, e8, e9⟩ := index_maps3 t
  funext j
  refine (body3_apply (iblk3 V c 0 t) (iblk3 V c 3 t) (iblk3 V c 1 t) (iblk3 V c 2 t) j).trans ?_
  show _ = max ((∑ k : Fin 64, (feat3 V c (ix2 ((((cfg3.win 4).blk t).view.emb j) 0) k)
        * fac3 V c (ix2 ((((cfg3.win 4).blk t).view.emb j) 0) (0 : Fin 1))) * wts3 V c (ix2 k ((((cfg3.win 4).blk t).view.emb j) 1)))
      + bias3 V c (ix2 (0 : Fin 1) ((((cfg3.win 4).blk t).view.emb j) 1))) Gcn.zeroWord
  have hA : ∀ k : Fin 64, iblk3 V c 0 t (ix2 (j 0) k) = feat3 V c (ix2 ((((cfg3.win 4).blk t).view.emb j) 0) k) := fun k => by
    show feat3 V c (((cfg3.win 0).blk t).view.emb (ix2 (j 0) k)) = _
    refine congrArg (feat3 V c) (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 64 + 1 * k.val = k.val; omega
  have hW : ∀ k : Fin 64, iblk3 V c 1 t (ix2 k (j 1)) = wts3 V c (ix2 k ((((cfg3.win 4).blk t).view.emb j) 1)) := fun k => by
    show wts3 V c (((cfg3.win 1).blk t).view.emb (ix2 k (j 1))) = _
    refine congrArg (wts3 V c) (funext fun a => Fin.ext ?_)
    match a with
    | ⟨0, _⟩ => show win3_1.index t (0 : Fin 2) * 64 + 1 * k.val = k.val; omega
    | ⟨1, _⟩ => show win3_1.index t (1 : Fin 2) * 64 + 1 * (j 1).val = win3_4.index t (1 : Fin 2) * 64 + 1 * (j 1).val; omega
  have hB : iblk3 V c 2 t (ix2 (0 : Fin 1) (j 1)) = bias3 V c (ix2 (0 : Fin 1) ((((cfg3.win 4).blk t).view.emb j) 1)) := by
    show bias3 V c (((cfg3.win 2).blk t).view.emb (ix2 (0 : Fin 1) (j 1))) = _
    refine congrArg (bias3 V c) (funext fun a => Fin.ext ?_)
    match a with
    | ⟨0, _⟩ => show win3_2.index t (0 : Fin 2) * 1 + 1 * 0 = 0; omega
    | ⟨1, _⟩ => show win3_2.index t (1 : Fin 2) * 64 + 1 * (j 1).val = win3_4.index t (1 : Fin 2) * 64 + 1 * (j 1).val; omega
  have hS : iblk3 V c 3 t (ix2 (j 0) (0 : Fin 1)) = fac3 V c (ix2 ((((cfg3.win 4).blk t).view.emb j) 0) (0 : Fin 1)) := by
    show fac3 V c (((cfg3.win 3).blk t).view.emb (ix2 (j 0) (0 : Fin 1))) = _
    refine congrArg (fac3 V c) (funext fun a => Fin.ext ?_)
    match a with
    | ⟨0, _⟩ => show win3_3.index t (0 : Fin 2) * 5000 + 1 * (j 0).val = win3_4.index t (0 : Fin 2) * 5000 + 1 * (j 0).val; omega
    | ⟨1, _⟩ => show win3_3.index t (1 : Fin 2) * 1 + 1 * 0 = 0; omega
  rw [hB, hS]
  refine congrArg (fun z => max (z + _) Gcn.zeroWord) (Finset.sum_congr rfl fun k _ => ?_)
  rw [hA k, hW k]

/-- An index of the result is in point t's block iff each coordinate is in the block's range on its axis. -/
theorem mem_block3 (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v51).slice (win3_4.rect t)).set ↔ _
  rw [View.set_slice_whole, Rect.mem_set_unit]
  exact Iff.rfl

/-- Row r lies in the block of point r / 5000: the twenty blocks tile the array. -/
theorem cover3 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  refine ⟨⟨(i 0).val / 5000, by rw [show cfg3.N = 20 from N_3]; omega⟩, flush3_4 _, ?_⟩
  obtain ⟨-, -, -, -, -, -, -, -, e8, e9⟩ := index_maps3 ⟨(i 0).val / 5000, by rw [show cfg3.N = 20 from N_3]; omega⟩
  rw [mem_block3]
  intro a
  match a with
  | ⟨0, _⟩ => show win3_4.index _ (0 : Fin 2) * 5000 ≤ (i 0).val ∧ (i 0).val < win3_4.index _ (0 : Fin 2) * 5000 + 5000; rw [e8]; show (i 0).val / 5000 * 5000 ≤ (i 0).val ∧ (i 0).val < (i 0).val / 5000 * 5000 + 5000; omega
  | ⟨1, _⟩ => show win3_4.index _ (1 : Fin 2) * 64 ≤ (i 1).val ∧ (i 1).val < win3_4.index _ (1 : Fin 2) * 64 + 64; rw [e9]; omega

/-- After the region the result array is the whole-array function of what the region found. -/
theorem arr3 (c : Dev nD) :
    (dat3 V c).arrAt 4 cfg3.N = Gcn.scaleMatBiasRelu (V c main_v49) (V c main_arg5) (V c main_v50) (V c main_v38) :=
  (dat3 V c).arrAt_eq_of_cover 4 (Gcn.scaleMatBiasRelu (V c main_v49) (V c main_arg5) (V c main_v50) (V c main_v38))
    (fun t _ => flushed3 V c t) cover3

end Cert.KernelIdeal.Val

end
-- ==== Proof.KI.Region4.lean ====
/-
  The last layer's first dense piece: the second layer's output times the third weight matrix, each row of the product
  then scaled by the node's out-degree factor.  One grid point handles 5000 consecutive rows; point t reads rows
  5000·t … 5000·t + 4999 of the features and of the factor column and the whole weight matrix, and writes the same
  rows of the result, so the twenty points' blocks tile the array and it ends holding, at (r, c),
  (∑ₖ h[r,k] · w[k,c]) · factor of row r.
-/
import proofs.«168125_j30279519437683_1_alg».proof.Proof.Gen.KernelIdeal.Frame
import Idealize.ShloMosaic.Lib.Pipeline.Value
import proofs.«168125_j30279519437683_1_alg».proof.Proof.Spec
import proofs.«168125_j30279519437683_1_alg».proof.Proof.LibColumnBroadcast
import proofs.«168125_j30279519437683_1_alg».proof.Proof.LibPlainDot

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The three arrays the region reads, at their literal types: the node features, the weight matrix and the factor column. -/
abbrev feat4 (c : Dev nD) : Gcn.Mat 100000 64 := V c main_v51
abbrev wts4 (c : Dev nD) : Gcn.Mat 64 16 := V c main_arg7
abbrev fac4 (c : Dev nD) : Gcn.Mat 100000 1 := V c main_v62

theorem zero_offsets4 : (![0, 0] : Fin 2 → Nat) = fun _ => 0 := funext fun a => by fin_cases a <;> rfl

/-- The block product's dimension numbers are the plain rows-by-columns ones. -/
theorem dims4_plain : dot_S5000x64_S64x16_S5000x16_1_0_0_1_n_n = DotDims.plain 5000 64 16 := rfl

/-- The body's value at (p, q): the loaded rows times the loaded weights, summed over the 64 features, times the loaded
    factor at (p, 0).  The change of float format before the product is the identity on exact values. -/
theorem body4_apply (x0 : Vec Ideal S5000x64 .f32) (x1 : Vec Ideal S64x16 .f32) (x2 : Vec Ideal S5000x1 .f32) (j : S5000x16.Idx) :
    k4_pay1 x0 x1 x2 j = (∑ k : Fin 64, x0 (ix2 (j 0) k) * x1 (ix2 k (j 1))) * x2 (ix2 (j 0) (0 : Fin 1)) := by
  obtain ⟨p, q, rfl⟩ : ∃ (p : Fin 5000) (q : Fin 16), j = ix2 p q := ⟨j 0, j 1, eq_ix2 j⟩
  unfold k4_pay1
  show matmul (F := Ideal) dot_S5000x64_S64x16_S5000x16_1_0_0_1_n_n none (truncf .bf16 (shapeCast S5000x64 x0 shapeCasts_S5000x64_S5000x64) bitsLt_bf16_f32) (truncf .bf16 x1 bitsLt_bf16_f32) (constant (F := Ideal) S5000x16 .f32 0x00000000#32) (ix2 p q)
      * broadcastTo S5000x16 (shapeCast S5000x1 x2 shapeCasts_S5000x1_S5000x1) broadcasts_S5000x1_S5000x16 (ix2 p q) = _
  rw [broadcastTo_a1_ab_apply, shapeCast_self, shapeCast_self, dims4_plain]
  refine congrArg (· * x2 (ix2 p (0 : Fin 1))) ?_
  exact plain_matmul_zero_apply none (truncf .bf16 x0 bitsLt_bf16_f32) (truncf .bf16 x1 bitsLt_bf16_f32) (ix2 p q)

/-- Where the windows sit at point t: the features, the factor column and the result at row block t, the weights whole. -/
theorem index_maps4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- What point t writes back is block t of the whole-array function. -/
theorem flushed4 (c : Dev nD) (t : Fin cfg4.N) :
    (dat4 V c).flushed 3 t
      = ((cfg4.win 3).blk t).view.read (Elt Ideal) (Gcn.matScale (V c main_v51) (V c main_arg7) (V c main_v62)) := by
  show (cfg4.win 3).cut (grid4.coords t) ((dat4 V c).after 3 t) = _
  rw [after4_3]
  unfold out4_3
  rw [View.canon_unit_zero zero_offsets4]
  simp only [View.ld_unit_zero (S := S5000x64) zero_offsets4, View.ld_unit_zero (S := S64x16) zero_offsets4, View.ld_unit_zero (S := S5000x1) zero_offsets4]
  obtain ⟨e0, e1, e2, e3, e4, e5, e6, e7⟩ := index_maps4 t
  funext j
  refine (body4_apply (iblk4 V c 0 t) (iblk4 V c 1 t) (iblk4 V c 2 t) j).trans ?_
  show _ = (∑ k : Fin 64, feat4 V c (ix2 ((((cfg4.win 3).blk t).view.emb j) 0) k) * wts4 V c (ix2 k ((((cfg4.win 3).blk t).view.emb j) 1)))
      * fac4 V c (ix2 ((((cfg4.win 3).blk t).view.emb j) 0) (0 : Fin 1))
  have hX : ∀ k : Fin 64, iblk4 V c 0 t (ix2 (j 0) k) = feat4 V c (ix2 ((((cfg4.win 3).blk t).view.emb j) 0) k) := fun k => by
    show feat4 V c (((cfg4.win 0).blk t).view.emb (ix2 (j 0) k)) = _
    refine congrArg (feat4 V c) (funext fun a => Fin.ext ?_)
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 64 + 1 * k.val = k.val; omega
  have hW : ∀ k : Fin 64, iblk4 V c 1 t (ix2 k (j 1)) = wts4 V c (ix2 k ((((cfg4.win 3).blk t).view.emb j) 1)) := fun k => by
    show wts4 V c (((cfg4.win 1).blk t).view.emb (ix2 k (j 1))) = _
    refine congrArg (wts4 V c) (funext fun a => Fin.ext ?_)
    match a with
    | ⟨0, _⟩ => show win4_1.index t (0 : Fin 2) * 64 + 1 * k.val = k.val; omega
    | ⟨1, _⟩ => show win4_1.index t (1 : Fin 2) * 16 + 1 * (j 1).val = win4_3.index t (1 : Fin 2) * 16 + 1 * (j 1).val; omega
  have hS : iblk4 V c 2 t (ix2 (j 0) (0 : Fin 1)) = fac4 V c (ix2 ((((cfg4.win 3).blk t).view.emb j) 0) (0 : Fin 1)) := by
    show fac4 V c (((cfg4.win 2).blk t).view.emb (ix2 (j 0) (0 : Fin 1))) = _
    refine congrArg (fac4 V c) (funext fun a => Fin.ext ?_)
    match a with
    | ⟨0, _⟩ => show win4_2.index t (0 : Fin 2) * 5000 + 1 * (j 0).val = win4_3.index t (0 : Fin 2) * 5000 + 1 * (j 0).val; omega
    | ⟨1, _⟩ => show win4_2.index t (1 : Fin 2) * 1 + 1 * 0 = 0; omega
  exact congrArg₂ (· * ·) (Finset.sum_congr rfl fun k _ => congrArg₂ (· * ·) (hX k) (hW k)) hS

/-- An index of the result is in point t's block iff each coordinate is in the block's range on its axis. -/
theorem mem_block4 (t : Fin cfg4.N) (i : S100000x16.Idx) :
    i ∈ ((cfg4.win 3).blk t).view.set ↔ ∀ a : Fin 2, win4_3.index t a * S5000x16.size a ≤ (i a).val ∧ (i a).val < win4_3.index t a * S5000x16.size a + S5000x16.size a := by
  show i ∈ ((View.whole main_v65).slice (win4_3.rect t)).set ↔ _
  rw [View.set_slice_whole, Rect.mem_set_unit]
  exact Iff.rfl

/-- Row r lies in the block of point r / 5000: the twenty blocks tile the array. -/
theorem cover4 (i : S100000x16.Idx) :
    ∃ t : Fin cfg4.N, (cfg4.win 3).flush t = true ∧ i ∈ ((cfg4.win 3).blk t).view.set := by
  have hi0 : (i 0).val < 100000 := (i 0).isLt
  have hi1 : (i 1).val < 16 := (i 1).isLt
  refine ⟨⟨(i 0).val / 5000, by rw [show cfg4.N = 20 from N_4]; omega⟩, flush4_3 _, ?_⟩
  obtain ⟨-, -, -, -, -, -, e6, e7⟩ := index_maps4 ⟨(i 0).val / 5000, by rw [show cfg4.N = 20 from N_4]; omega⟩
  rw [mem_block4]
  intro a
  match a with
  | ⟨0, _⟩ => show win4_3.index _ (0 : Fin 2) * 5000 ≤ (i 0).val ∧ (i 0).val < win4_3.index _ (0 : Fin 2) * 5000 + 5000; rw [e6]; show (i 0).val / 5000 * 5000 ≤ (i 0).val ∧ (i 0).val < (i 0).val / 5000 * 5000 + 5000; omega
  | ⟨1, _⟩ => show win4_3.index _ (1 : Fin 2) * 16 ≤ (i 1).val ∧ (i 1).val < win4_3.index _ (1 : Fin 2) * 16 + 16; rw [e7]; omega

/-- After the region the result array is the whole-array function of what the region found. -/
theorem arr4 (c : Dev nD) :
    (dat4 V c).arrAt 3 cfg4.N = Gcn.matScale (V c main_v51) (V c main_arg7) (V c main_v62) :=
  (dat4 V c).arrAt_eq_of_cover 3 (Gcn.matScale (V c main_v51) (V c main_arg7) (V c main_v62)) (fun t _ => flushed4 V c t) cover4

end Cert.KernelIdeal.Val

end
-- ==== Proof.KI.Region5.lean ====
/-
  The last layer's closing piece: the aggregated 16 class scores of every node scaled by the node's in-degree factor,
  plus the bias row.  One grid point handles 5000 consecutive rows; point t reads rows 5000·t … 5000·t + 4999 of the
  scores and of the factor column and the whole bias row, and writes the same rows of the result, so the twenty
  points' blocks tile the array and it ends holding, at (r, c), score · factor of row r + bias of column c.
-/
import proofs.«168125_j30279519437683_1_alg».proof.Proof.Gen.KernelIdeal.Frame
import Idealize.ShloMosaic.Lib.Pipeline.Value
import proofs.«168125_j30279519437683_1_alg».proof.Proof.Spec
import proofs.«168125_j30279519437683_1_alg».proof.Proof.LibColumnBroadcast
import proofs.«168125_j30279519437683_1_alg».proof.Proof.LibPlainDot

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The three arrays the region reads, at their literal types: the aggregated features, the bias row and the factor column. -/
abbrev feat5 (c : Dev nD) : Gcn.Mat 100000 16 := V c main_v75
abbrev bias5 (c : Dev nD) : Gcn.Mat 1 16 := V c main_v76
abbrev fac5 (c : Dev nD) : Gcn.Mat 100000 1 := V c main_v64

theorem zero_offsets5 : (![0, 0] : Fin 2 → Nat) = fun _ => 0 := funext fun a => by fin_cases a <;> rfl

/-- The body's value at (p, q): the loaded score at (p, q) times the loaded factor at (p, 0), plus the loaded bias at (0, q). -/
theorem body5_apply (x0 : Vec Ideal S5000x16 .f32) (x2 : Vec Ideal S5000x1 .f32) (x6 : Vec Ideal S1x16 .f32) (j : S5000x16.Idx) :
    k5_pay1 x0 x2 x6 j = x0 j * x2 (ix2 (j 0) (0 : Fin 1)) + x6 (ix2 (0 : Fin 1) (j 1)) := by
  obtain ⟨p, q, rfl⟩ : ∃ (p : Fin 5000) (q : Fin 16), j = ix2 p q := ⟨j 0, j 1, eq_ix2 j⟩
  unfold k5_pay1
  show shapeCast S5000x16 x0 shapeCasts_S5000x16_S5000x16 (ix2 p q)
      * broadcastTo S5000x16 (shapeCast S5000x1 x2 shapeCasts_S5000x1_S5000x1) broadcasts_S5000x1_S5000x16 (ix2 p q)
      + broadcastTo S5000x16 (shapeCast S1x16 x6 shapeCasts_S1x16_S1x16) broadcasts_S1x16_S5000x16 (ix2 p q) = _
  rw [broadcastTo_a1_ab_apply, broadcastTo_1b_ab_apply, shapeCast_self, shapeCast_self, shapeCast_self]

/-- Where the windows sit at point t: the features, the factor column and the result at row block t, the bias row fixed. -/
theorem index_maps5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- What point t writes back is block t of the whole-array function. -/
theorem flushed5 (c : Dev nD) (t : Fin cfg5.N) :
    (dat5 V c).flushed 3 t
      = ((cfg5.win 3).blk t).view.read (Elt Ideal) (Gcn.scaleBias (V c main_v75) (V c main_v76) (V c main_v64)) := by
  show (cfg5.win 3).cut (grid5.coords t) ((dat5 V c).after 3 t) = _
  rw [after5_3]
  unfold out5_3
  rw [View.canon_unit_zero zero_offsets5]
  simp only [View.ld_unit_zero (S := S5000x16) zero_offsets5, View.ld_unit_zero (S := S5000x1) zero_offsets5, View.ld_unit_zero (S := S1x16) zero_offsets5]
  obtain ⟨e0, e1, e2, e3, e4, e5, e6, e7⟩ := index_maps5 t
  funext j
  refine (body5_apply (iblk5 V c 0 t) (iblk5 V c 2 t) (iblk5 V c 1 t) j).trans ?_
  show _ = feat5 V c (((cfg5.win 3).blk t).view.emb j)
      * fac5 V c (ix2 ((((cfg5.win 3).blk t).view.emb j) 0) (0 : Fin 1))
      + bias5 V c (ix2 (0 : Fin 1) ((((cfg5.win 3).blk t).view.emb j) 1))
  have h0 : ((cfg5.win 0).blk t).view.emb j = ((cfg5.win 3).blk t).view.emb j := by
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 16 + 1 * (j 1).val = win5_3.index t (1 : Fin 2) * 16 + 1 * (j 1).val; omega
  have h1 : ((cfg5.win 2).blk t).view.emb (ix2 (j 0) (0 : Fin 1)) = ix2 ((((cfg5.win 3).blk t).view.emb j) 0) (0 : Fin 1) := by
    funext a; apply Fin.ext
    match a with
    | ⟨0, _⟩ => show win5_2.index t (0 : Fin 2) * 5000 + 1 * (j 0).val = win5_3.index t (0 : Fin 2) * 5000 + 1 * (j 0).val; omega
    | ⟨1, _⟩ => show win5_2.index t (1 : Fin 2) * 1 + 1 * 0 = 0; omega
  have h2 : ((cfg5.win 1).blk t).view.emb (ix2 (0 : Fin 1) (j 1)) = ix2 (0 : Fin 1) ((((cfg5.win 3).blk t).view.emb j) 1) := by
    funext a; apply Fin.ext
    match a with
    | ⟨0, _⟩ => show win5_1.index t (0 : Fin 2) * 1 + 1 * 0 = 0; omega
    | ⟨1, _⟩ => show win5_1.index t (1 : Fin 2) * 16 + 1 * (j 1).val = win5_3.index t (1 : Fin 2) * 16 + 1 * (j 1).val; omega
  have hA : iblk5 V c 0 t j = feat5 V c (((cfg5.win 3).blk t).view.emb j) := by
    show feat5 V c (((cfg5.win 0).blk t).view.emb j) = _
    exact congrArg (feat5 V c) h0
  have hS : iblk5 V c 2 t (ix2 (j 0) (0 : Fin 1)) = fac5 V c (ix2 ((((cfg5.win 3).blk t).view.emb j) 0) (0 : Fin 1)) := by
    show fac5 V c (((cfg5.win 2).blk t).view.emb (ix2 (j 0) (0 : Fin 1))) = _
    exact congrArg (fac5 V c) h1
  have hB : iblk5 V c 1 t (ix2 (0 : Fin 1) (j 1)) = bias5 V c (ix2 (0 : Fin 1) ((((cfg5.win 3).blk t).view.emb j) 1)) := by
    show bias5 V c (((cfg5.win 1).blk t).view.emb (ix2 (0 : Fin 1) (j 1))) = _
    exact congrArg (bias5 V c) h2
  rw [hA, hS, hB]

/-- An index of the result is in point t's block iff each coordinate is in the block's range on its axis. -/
theorem mem_block5 (t : Fin cfg5.N) (i : S100000x16.Idx) :
    i ∈ ((cfg5.win 3).blk t).view.set ↔ ∀ a : Fin 2, win5_3.index t a * S5000x16.size a ≤ (i a).val ∧ (i a).val < win5_3.index t a * S5000x16.size a + S5000x16.size a := by
  show i ∈ ((View.whole main_v77).slice (win5_3.rect t)).set ↔ _
  rw [View.set_slice_whole, Rect.mem_set_unit]
  exact Iff.rfl

/-- Row r lies in the block of point r / 5000: the twenty blocks tile the array. -/
theorem cover5 (i : S100000x16.Idx) :
    ∃ t : Fin cfg5.N, (cfg5.win 3).flush t = true ∧ i ∈ ((cfg5.win 3).blk t).view.set := by
  have hi0 : (i 0).val < 100000 := (i 0).isLt
  have hi1 : (i 1).val < 16 := (i 1).isLt
  refine ⟨⟨(i 0).val / 5000, by rw [show cfg5.N = 20 from N_5]; omega⟩, flush5_3 _, ?_⟩
  obtain ⟨-, -, -, -, -, -, e6, e7⟩ := index_maps5 ⟨(i 0).val / 5000, by rw [show cfg5.N = 20 from N_5]; omega⟩
  rw [mem_block5]
  intro a
  match a with
  | ⟨0, _⟩ => show win5_3.index _ (0 : Fin 2) * 5000 ≤ (i 0).val ∧ (i 0).val < win5_3.index _ (0 : Fin 2) * 5000 + 5000; rw [e6]; show (i 0).val / 5000 * 5000 ≤ (i 0).val ∧ (i 0).val < (i 0).val / 5000 * 5000 + 5000; omega
  | ⟨1, _⟩ => show win5_3.index _ (1 : Fin 2) * 16 ≤ (i 1).val ∧ (i 1).val < win5_3.index _ (1 : Fin 2) * 16 + 16; rw [e7]; omega

/-- After the region the result array is the whole-array function of what the region found. -/
theorem arr5 (c : Dev nD) :
    (dat5 V c).arrAt 3 cfg5.N = Gcn.scaleBias (V c main_v75) (V c main_v76) (V c main_v64) :=
  (dat5 V c).arrAt_eq_of_cover 3 (Gcn.scaleBias (V c main_v75) (V c main_v76) (V c main_v64)) (fun t _ => flushed5 V c t) cover5

end Cert.KernelIdeal.Val

end
-- ==== Proof.KI.Chain.lean ====
/-
  The kernel program's result as one function of its arguments: through the six kernel regions and the host
  stretches between them, the result array ends holding the three layers (Gcn.net) of the launch contents.

  The host stretches are read first, over any entry contents: which buffers a stretch leaves alone, and that the
  buffers a later region reads hold the degree columns, the aggregated rows and the bias rows (HostDefs) of the entry
  contents. Then the run is followed boundary by boundary from the launch: each buffer still needed later is a closed
  term of the launch contents, every region's result array by that region's value theorem.
-/
import proofs.«168125_j30279519437683_1_alg».proof.Proof.KI.HostDefs
import proofs.«168125_j30279519437683_1_alg».proof.Proof.KI.Region0
import proofs.«168125_j30279519437683_1_alg».proof.Proof.KI.Region1
import proofs.«168125_j30279519437683_1_alg».proof.Proof.KI.Region2
import proofs.«168125_j30279519437683_1_alg».proof.Proof.KI.Region3
import proofs.«168125_j30279519437683_1_alg».proof.Proof.KI.Region4
import proofs.«168125_j30279519437683_1_alg».proof.Proof.KI.Region5
import Idealize.ShloMosaic.Lib.StableHlo.Run

noncomputable section

namespace Cert.KernelIdeal.Val

open Cert.KernelIdeal Cert.KernelIdeal.Gen Idealize.ShloMosaic Idealize.ShloMosaic.TcCoe Idealize.SL.Sem

/-! ## The host stretches, over any entry contents

A host stretch is a straight line of tensor operations; what a buffer holds after it is the fold of the operations'
results. Two kinds of facts are needed of each stretch: a buffer none of its operations writes keeps its contents, and
the few buffers a later kernel region reads hold the named host terms (HostDefs) of the entry contents. -/

section Stretches

/-- Every operation of the line writes one of the listed references. -/
abbrev WritesIn (W : List (Ref sig .tc)) (ops : List (HloOp τ sig (Elt Ideal))) : Prop :=
  ops.Forall fun op => op.writes ⊆ (W.map (Proc.devRef (τ := τ) .tc)).toFinset

/-- What the five stretches before region 0 write (the two degree columns and their intermediate values). -/
abbrev degW0 : List (Ref sig .tc) :=
  [main_cst, main_v0, main_cst_0, main_v1, main_v2, main_v3, main_cst_1, main_call0_v0, main_call0_v1, main_v4,
   main_cst_2, main_v5, main_v6, main_v7, main_cst_3, main_call1_v0, main_call1_v1, main_v8,
   main_v9, main_v10, main_v11, main_v12]
/-- What the stretch between regions 0 and 1 writes. -/
abbrev aggW1 : List (Ref sig .tc) :=
  [main_c, main_v14, main_v15, main_c_4, main_v16, main_v17, main_v18, main_v19, main_v20, main_cst_5, main_v21,
   main_v22, main_v23, main_v24]
/-- What the five stretches between regions 1 and 2 write. -/
abbrev degW2 : List (Ref sig .tc) :=
  [main_cst_6, main_v26, main_cst_7, main_v27, main_v28, main_v29, main_cst_8, main_call2_v0, main_call2_v1, main_v30,
   main_cst_9, main_v31, main_v32, main_v33, main_cst_10, main_call3_v0, main_call3_v1, main_v34,
   main_v35, main_v36, main_v37, main_v38]
/-- What the stretch between regions 2 and 3 writes. -/
abbrev aggW3 : List (Ref sig .tc) :=
  [main_c_11, main_v40, main_v41, main_c_12, main_v42, main_v43, main_v44, main_v45, main_v46, main_cst_13, main_v47,
   main_v48, main_v49, main_v50]
/-- What the five stretches between regions 3 and 4 write. -/
abbrev degW4 : List (Ref sig .tc) :=
  [main_cst_14, main_v52, main_cst_15, main_v53, main_v54, main_v55, main_cst_16, main_call4_v0, main_call4_v1, main_v56,
   main_cst_17, main_v57, main_v58, main_v59, main_cst_18, main_call5_v0, main_call5_v1, main_v60,
   main_v61, main_v62, main_v63, main_v64]
/-- What the stretch between regions 4 and 5 writes. -/
abbrev aggW5 : List (Ref sig .tc) :=
  [main_c_19, main_v66, main_v67, main_c_20, main_v68, main_v69, main_v70, main_v71, main_v72, main_cst_21, main_v73,
   main_v74, main_v75, main_v76]

/-- Reads each operation's written buffer off its builder and finds it in the list. -/
macro "writes_in" : tactic =>
  `(tactic| (
    simp only [List.Forall, StableHlo.nullary_writes, StableHlo.unary_writes, StableHlo.binary_writes, StableHlo.ternary_writes, StableHlo.reshape_writes, Finset.singleton_subset_iff, List.mem_toFinset]
    repeat' apply And.intro
    all_goals exact List.mem_map_of_mem (by decide)))

theorem writes0 : WritesIn degW0 hostOps0 := by writes_in
theorem writes0_1 : WritesIn degW0 hostOps0_1 := by writes_in
theorem writes0_2 : WritesIn degW0 hostOps0_2 := by writes_in
theorem writes0_3 : WritesIn degW0 hostOps0_3 := by writes_in
theorem writes0_4 : WritesIn degW0 hostOps0_4 := by writes_in
theorem writes1 : WritesIn aggW1 hostOps1 := by writes_in
theorem writes2 : WritesIn degW2 hostOps2 := by writes_in
theorem writes2_1 : WritesIn degW2 hostOps2_1 := by writes_in
theorem writes2_2 : WritesIn degW2 hostOps2_2 := by writes_in
theorem writes2_3 : WritesIn degW2 hostOps2_3 := by writes_in
theorem writes2_4 : WritesIn degW2 hostOps2_4 := by writes_in
theorem writes3 : WritesIn aggW3 hostOps3 := by writes_in
theorem writes4 : WritesIn degW4 hostOps4 := by writes_in
theorem writes4_1 : WritesIn degW4 hostOps4_1 := by writes_in
theorem writes4_2 : WritesIn degW4 hostOps4_2 := by writes_in
theorem writes4_3 : WritesIn degW4 hostOps4_3 := by writes_in
theorem writes4_4 : WritesIn degW4 hostOps4_4 := by writes_in
theorem writes5 : WritesIn aggW5 hostOps5 := by writes_in

variable (X : Valuation τ sig (Elt Ideal))

/-- The contents after the five stretches before region 0, 1 and 2, 3 and 4. -/
abbrev afterDeg0 : Valuation τ sig (Elt Ideal) :=
  StableHlo.after hostOps0_4 (StableHlo.after hostOps0_3 (StableHlo.after hostOps0_2 (StableHlo.after hostOps0_1 (StableHlo.after hostOps0 X))))
abbrev afterDeg2 : Valuation τ sig (Elt Ideal) :=
  StableHlo.after hostOps2_4 (StableHlo.after hostOps2_3 (StableHlo.after hostOps2_2 (StableHlo.after hostOps2_1 (StableHlo.after hostOps2 X))))
abbrev afterDeg4 : Valuation τ sig (Elt Ideal) :=
  StableHlo.after hostOps4_4 (StableHlo.after hostOps4_3 (StableHlo.after hostOps4_2 (StableHlo.after hostOps4_1 (StableHlo.after hostOps4 X))))

/-! ### What the stretches leave alone -/

theorem keepDeg0 {r : Ref sig .tc} (hr : r ∉ degW0) : afterDeg0 X (Proc.devRef .tc r) = X (Proc.devRef .tc r) :=
  (StableHlo.after_of_writes_sub _ _ writes0_4 hr).trans <| (StableHlo.after_of_writes_sub _ _ writes0_3 hr).trans <|
    (StableHlo.after_of_writes_sub _ _ writes0_2 hr).trans <| (StableHlo.after_of_writes_sub _ _ writes0_1 hr).trans <|
      StableHlo.after_of_writes_sub _ _ writes0 hr
theorem keepAgg1 {r : Ref sig .tc} (hr : r ∉ aggW1) : StableHlo.after hostOps1 X (Proc.devRef .tc r) = X (Proc.devRef .tc r) :=
  StableHlo.after_of_writes_sub _ _ writes1 hr
theorem keepDeg2 {r : Ref sig .tc} (hr : r ∉ degW2) : afterDeg2 X (Proc.devRef .tc r) = X (Proc.devRef .tc r) :=
  (StableHlo.after_of_writes_sub _ _ writes2_4 hr).trans <| (StableHlo.after_of_writes_sub _ _ writes2_3 hr).trans <|
    (StableHlo.after_of_writes_sub _ _ writes2_2 hr).trans <| (StableHlo.after_of_writes_sub _ _ writes2_1 hr).trans <|
      StableHlo.after_of_writes_sub _ _ writes2 hr
theorem keepAgg3 {r : Ref sig .tc} (hr : r ∉ aggW3) : StableHlo.after hostOps3 X (Proc.devRef .tc r) = X (Proc.devRef .tc r) :=
  StableHlo.after_of_writes_sub _ _ writes3 hr
theorem keepDeg4 {r : Ref sig .tc} (hr : r ∉ degW4) : afterDeg4 X (Proc.devRef .tc r) = X (Proc.devRef .tc r) :=
  (StableHlo.after_of_writes_sub _ _ writes4_4 hr).trans <| (StableHlo.after_of_writes_sub _ _ writes4_3 hr).trans <|
    (StableHlo.after_of_writes_sub _ _ writes4_2 hr).trans <| (StableHlo.after_of_writes_sub _ _ writes4_1 hr).trans <|
      StableHlo.after_of_writes_sub _ _ writes4 hr
theorem keepAgg5 {r : Ref sig .tc} (hr : r ∉ aggW5) : StableHlo.after hostOps5 X (Proc.devRef .tc r) = X (Proc.devRef .tc r) :=
  StableHlo.after_of_writes_sub _ _ writes5 hr

end Stretches

/-! ### The degree column in three steps

The stretches compute a degree column in three steps, each over the whole array: count the edges per node (a
scatter-add of ones), clip the counts below at one, take the reciprocal root and reshape to a column. -/

/-- A one per edge. -/
abbrev onesE : FVec Ideal S1600000 .f32 :=
  broadcastInDim S1600000 ![] bcast_S_S1600000 (constant (F := Ideal) S_ .f32 0x3F800000#32)

/-- The edges counted per node of this end: u[e] added at node x[e], from zero. -/
def cnt (u : FVec Ideal S1600000 .f32) (x : Ends) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 x) u

/-- The maximum with a scalar, node by node. -/
def clip (a : FVec Ideal S_ .f32) (v : FVec Ideal S100000 .f32) : FVec Ideal S100000 .f32 :=
  maximumf (broadcastInDim S100000 ![] bcast_S_S100000 (id a)) v

/-- The reciprocal root, node by node, as a column. -/
def toCol (v : FVec Ideal S100000 .f32) : Gcn.Mat 100000 1 :=
  shapeCast S100000x1 (Host.rsqrt v) shapeCasts_S100000_S100000x1

/-- The degree column is the three steps in order. -/
theorem col_eq (x : Ends) : col x = toCol (clip (constant (F := Ideal) S_ .f32 0x3F800000#32) (cnt onesE x)) := by
  unfold col deg toCol clip cnt
  with_reducible rfl

/-! ### Before region 0 -/

section Deg0
variable (Y : Valuation τ sig (Elt Ideal))

theorem s0_cnt : StableHlo.after (hostOps0 (F := Ideal)) Y (Proc.devRef .tc main_v3) = cnt onesE (Y (Proc.devRef .tc main_arg1)) := by
  unfold cnt; after_results_simp
theorem s0_ones : StableHlo.after (hostOps0 (F := Ideal)) Y (Proc.devRef .tc main_v0) = onesE := by
  after_results_simp
theorem s0_one : StableHlo.after (hostOps0 (F := Ideal)) Y (Proc.devRef .tc main_cst_1) = constant (F := Ideal) S_ .f32 0x3F800000#32 := by
  after_results_simp
theorem s0_dst : StableHlo.after (hostOps0 (F := Ideal)) Y (Proc.devRef .tc main_arg2) = Y (Proc.devRef .tc main_arg2) := by
  after_results_simp
theorem s01_clip : StableHlo.after (hostOps0_1 (F := Ideal)) Y (Proc.devRef .tc main_v4)
    = clip (Y (Proc.devRef .tc main_cst_1)) (Y (Proc.devRef .tc main_v3)) := by
  unfold clip; after_results_simp; rfl
theorem s01_ones : StableHlo.after (hostOps0_1 (F := Ideal)) Y (Proc.devRef .tc main_v0) = Y (Proc.devRef .tc main_v0) := by
  after_results_simp
theorem s01_dst : StableHlo.after (hostOps0_1 (F := Ideal)) Y (Proc.devRef .tc main_arg2) = Y (Proc.devRef .tc main_arg2) := by
  after_results_simp
theorem s02_cnt : StableHlo.after (hostOps0_2 (F := Ideal)) Y (Proc.devRef .tc main_v7)
    = cnt (Y (Proc.devRef .tc main_v0)) (Y (Proc.devRef .tc main_arg2)) := by
  unfold cnt; after_results_simp
theorem s02_one : StableHlo.after (hostOps0_2 (F := Ideal)) Y (Proc.devRef .tc main_cst_3) = constant (F := Ideal) S_ .f32 0x3F800000#32 := by
  after_results_simp
theorem s02_keep : StableHlo.after (hostOps0_2 (F := Ideal)) Y (Proc.devRef .tc main_v4) = Y (Proc.devRef .tc main_v4) := by
  after_results_simp
theorem s03_clip : StableHlo.after (hostOps0_3 (F := Ideal)) Y (Proc.devRef .tc main_v8)
    = clip (Y (Proc.devRef .tc main_cst_3)) (Y (Proc.devRef .tc main_v7)) := by
  unfold clip; after_results_simp; rfl
theorem s03_keep : StableHlo.after (hostOps0_3 (F := Ideal)) Y (Proc.devRef .tc main_v4) = Y (Proc.devRef .tc main_v4) := by
  after_results_simp
theorem s04_src : StableHlo.after (hostOps0_4 (F := Ideal)) Y (Proc.devRef .tc main_v10) = toCol (Y (Proc.devRef .tc main_v4)) := by
  unfold toCol; after_results_simp; rfl
theorem s04_dst : StableHlo.after (hostOps0_4 (F := Ideal)) Y (Proc.devRef .tc main_v12) = toCol (Y (Proc.devRef .tc main_v8)) := by
  unfold toCol; after_results_simp; rfl

/-- Before region 0: the degree columns of the two edge-end lists. -/
theorem deg0_src : afterDeg0 Y (Proc.devRef .tc main_v10) = col (Y (Proc.devRef .tc main_arg1)) := by
  rw [col_eq]
  show StableHlo.after hostOps0_4 _ _ = _
  rw [s04_src, s03_keep, s02_keep, s01_clip, s0_one, s0_cnt]
theorem deg0_dst : afterDeg0 Y (Proc.devRef .tc main_v12) = col (Y (Proc.devRef .tc main_arg2)) := by
  rw [col_eq]
  show StableHlo.after hostOps0_4 _ _ = _
  rw [s04_dst, s03_clip, s02_one, s02_cnt, s01_ones, s0_ones, s01_dst, s0_dst]

end Deg0

/-! ### Between regions 1 and 2 -/

section Deg2
variable (Y : Valuation τ sig (Elt Ideal))

theorem s2_cnt : StableHlo.after (hostOps2 (F := Ideal)) Y (Proc.devRef .tc main_v29) = cnt onesE (Y (Proc.devRef .tc main_arg1)) := by
  unfold cnt; after_results_simp
theorem s2_ones : StableHlo.after (hostOps2 (F := Ideal)) Y (Proc.devRef .tc main_v26) = onesE := by
  after_results_simp
theorem s2_one : StableHlo.after (hostOps2 (F := Ideal)) Y (Proc.devRef .tc main_cst_8) = constant (F := Ideal) S_ .f32 0x3F800000#32 := by
  after_results_simp
theorem s2_dst : StableHlo.after (hostOps2 (F := Ideal)) Y (Proc.devRef .tc main_arg2) = Y (Proc.devRef .tc main_arg2) := by
  after_results_simp
theorem s21_clip : StableHlo.after (hostOps2_1 (F := Ideal)) Y (Proc.devRef .tc main_v30)
    = clip (Y (Proc.devRef .tc main_cst_8)) (Y (Proc.devRef .tc main_v29)) := by
  unfold clip; after_results_simp; rfl
theorem s21_ones : StableHlo.after (hostOps2_1 (F := Ideal)) Y (Proc.devRef .tc main_v26) = Y (Proc.devRef .tc main_v26) := by
  after_results_simp
theorem s21_dst : StableHlo.after (hostOps2_1 (F := Ideal)) Y (Proc.devRef .tc main_arg2) = Y (Proc.devRef .tc main_arg2) := by
  after_results_simp
theorem s22_cnt : StableHlo.after (hostOps2_2 (F := Ideal)) Y (Proc.devRef .tc main_v33)
    = cnt (Y (Proc.devRef .tc main_v26)) (Y (Proc.devRef .tc main_arg2)) := by
  unfold cnt; after_results_simp
theorem s22_one : StableHlo.after (hostOps2_2 (F := Ideal)) Y (Proc.devRef .tc main_cst_10) = constant (F := Ideal) S_ .f32 0x3F800000#32 := by
  after_results_simp
theorem s22_keep : StableHlo.after (hostOps2_2 (F := Ideal)) Y (Proc.devRef .tc main_v30) = Y (Proc.devRef .tc main_v30) := by
  after_results_simp
theorem s23_clip : StableHlo.after (hostOps2_3 (F := Ideal)) Y (Proc.devRef .tc main_v34)
    = clip (Y (Proc.devRef .tc main_cst_10)) (Y (Proc.devRef .tc main_v33)) := by
  unfold clip; after_results_simp; rfl
theorem s23_keep : StableHlo.after (hostOps2_3 (F := Ideal)) Y (Proc.devRef .tc main_v30) = Y (Proc.devRef .tc main_v30) := by
  after_results_simp
theorem s24_src : StableHlo.after (hostOps2_4 (F := Ideal)) Y (Proc.devRef .tc main_v36) = toCol (Y (Proc.devRef .tc main_v30)) := by
  unfold toCol; after_results_simp; rfl
theorem s24_dst : StableHlo.after (hostOps2_4 (F := Ideal)) Y (Proc.devRef .tc main_v38) = toCol (Y (Proc.devRef .tc main_v34)) := by
  unfold toCol; after_results_simp; rfl

/-- Before region 2: the two degree columns again. -/
theorem deg2_src : afterDeg2 Y (Proc.devRef .tc main_v36) = col (Y (Proc.devRef .tc main_arg1)) := by
  rw [col_eq]
  show StableHlo.after hostOps2_4 _ _ = _
  rw [s24_src, s23_keep, s22_keep, s21_clip, s2_one, s2_cnt]
theorem deg2_dst : afterDeg2 Y (Proc.devRef .tc main_v38) = col (Y (Proc.devRef .tc main_arg2)) := by
  rw [col_eq]
  show StableHlo.after hostOps2_4 _ _ = _
  rw [s24_dst, s23_clip, s22_one, s22_cnt, s21_ones, s2_ones, s21_dst, s2_dst]

end Deg2

/-! ### Between regions 3 and 4 -/

section Deg4
variable (Y : Valuation τ sig (Elt Ideal))

theorem s4_cnt : StableHlo.after (hostOps4 (F := Ideal)) Y (Proc.devRef .tc main_v55) = cnt onesE (Y (Proc.devRef .tc main_arg1)) := by
  unfold cnt; after_results_simp
theorem s4_ones : StableHlo.after (hostOps4 (F := Ideal)) Y (Proc.devRef .tc main_v52) = onesE := by
  after_results_simp
theorem s4_one : StableHlo.after (hostOps4 (F := Ideal)) Y (Proc.devRef .tc main_cst_16) = constant (F := Ideal) S_ .f32 0x3F800000#32 := by
  after_results_simp
theorem s4_dst : StableHlo.after (hostOps4 (F := Ideal)) Y (Proc.devRef .tc main_arg2) = Y (Proc.devRef .tc main_arg2) := by
  after_results_simp
theorem s41_clip : StableHlo.after (hostOps4_1 (F := Ideal)) Y (Proc.devRef .tc main_v56)
    = clip (Y (Proc.devRef .tc main_cst_16)) (Y (Proc.devRef .tc main_v55)) := by
  unfold clip; after_results_simp; rfl
theorem s41_ones : StableHlo.after (hostOps4_1 (F := Ideal)) Y (Proc.devRef .tc main_v52) = Y (Proc.devRef .tc main_v52) := by
  after_results_simp
theorem s41_dst : StableHlo.after (hostOps4_1 (F := Ideal)) Y (Proc.devRef .tc main_arg2) = Y (Proc.devRef .tc main_arg2) := by
  after_results_simp
theorem s42_cnt : StableHlo.after (hostOps4_2 (F := Ideal)) Y (Proc.devRef .tc main_v59)
    = cnt (Y (Proc.devRef .tc main_v52)) (Y (Proc.devRef .tc main_arg2)) := by
  unfold cnt; after_results_simp
theorem s42_one : StableHlo.after (hostOps4_2 (F := Ideal)) Y (Proc.devRef .tc main_cst_18) = constant (F := Ideal) S_ .f32 0x3F800000#32 := by
  after_results_simp
theorem s42_keep : StableHlo.after (hostOps4_2 (F := Ideal)) Y (Proc.devRef .tc main_v56) = Y (Proc.devRef .tc main_v56) := by
  after_results_simp
theorem s43_clip : StableHlo.after (hostOps4_3 (F := Ideal)) Y (Proc.devRef .tc main_v60)
    = clip (Y (Proc.devRef .tc main_cst_18)) (Y (Proc.devRef .tc main_v59)) := by
  unfold clip; after_results_simp; rfl
theorem s43_keep : StableHlo.after (hostOps4_3 (F := Ideal)) Y (Proc.devRef .tc main_v56) = Y (Proc.devRef .tc main_v56) := by
  after_results_simp
theorem s44_src : StableHlo.after (hostOps4_4 (F := Ideal)) Y (Proc.devRef .tc main_v62) = toCol (Y (Proc.devRef .tc main_v56)) := by
  unfold toCol; after_results_simp; rfl
theorem s44_dst : StableHlo.after (hostOps4_4 (F := Ideal)) Y (Proc.devRef .tc main_v64) = toCol (Y (Proc.devRef .tc main_v60)) := by
  unfold toCol; after_results_simp; rfl

/-- Before region 4: the two degree columns once more. -/
theorem deg4_src : afterDeg4 Y (Proc.devRef .tc main_v62) = col (Y (Proc.devRef .tc main_arg1)) := by
  rw [col_eq]
  show StableHlo.after hostOps4_4 _ _ = _
  rw [s44_src, s43_keep, s42_keep, s41_clip, s4_one, s4_cnt]
theorem deg4_dst : afterDeg4 Y (Proc.devRef .tc main_v64) = col (Y (Proc.devRef .tc main_arg2)) := by
  rw [col_eq]
  show StableHlo.after hostOps4_4 _ _ = _
  rw [s44_dst, s43_clip, s42_one, s42_cnt, s41_ones, s4_ones, s41_dst, s4_dst]

end Deg4

/-! ### The aggregation stretches

Each wraps the negative sources around once, gathers the rows of the last region's result at the sources, adds them
into the rows of the destinations, and reshapes the next layer's bias to a row. -/

section Agg
variable (Y : Valuation τ sig (Elt Ideal))

theorem agg1_val : StableHlo.after (hostOps1 (F := Ideal)) Y (Proc.devRef .tc main_v23)
    = agg64 (Y (Proc.devRef .tc main_arg1)) (Y (Proc.devRef .tc main_arg2)) (Y (Proc.devRef .tc main_v13)) := by
  unfold agg64 wrap; after_results_simp
theorem agg1_bias : StableHlo.after (hostOps1 (F := Ideal)) Y (Proc.devRef .tc main_v24) = row64 (Y (Proc.devRef .tc main_arg4)) := by
  unfold row64; after_results_simp; rfl
theorem agg3_val : StableHlo.after (hostOps3 (F := Ideal)) Y (Proc.devRef .tc main_v49)
    = agg64 (Y (Proc.devRef .tc main_arg1)) (Y (Proc.devRef .tc main_arg2)) (Y (Proc.devRef .tc main_v39)) := by
  unfold agg64 wrap; after_results_simp
theorem agg3_bias : StableHlo.after (hostOps3 (F := Ideal)) Y (Proc.devRef .tc main_v50) = row64 (Y (Proc.devRef .tc main_arg6)) := by
  unfold row64; after_results_simp; rfl
theorem agg5_val : StableHlo.after (hostOps5 (F := Ideal)) Y (Proc.devRef .tc main_v75)
    = agg16 (Y (Proc.devRef .tc main_arg1)) (Y (Proc.devRef .tc main_arg2)) (Y (Proc.devRef .tc main_v65)) := by
  unfold agg16 wrap; after_results_simp
theorem agg5_bias : StableHlo.after (hostOps5 (F := Ideal)) Y (Proc.devRef .tc main_v76) = row16 (Y (Proc.devRef .tc main_arg8)) := by
  unfold row16; after_results_simp; rfl

end Agg

/-! ## The run, boundary by boundary

The buffers still needed later, at each segment boundary, as closed terms of the launch contents: the arguments keep
what they were launched with until their last use, the host stretches add the degree columns, the aggregated rows and
the bias rows, and each kernel region adds its result array. -/

section Chain

variable (m : (ℓ : Loc nD τ sig) → Buf (Elt Ideal) ℓ) (ρ : Dev nD → PrngReg) (c : Dev nD)

/-- The arguments as launched, at their literal types. -/
abbrev aX : Gcn.Mat 100000 128 := m ((c : Thread nD τ).loc main_arg0)
abbrev aSrc : Ends := m ((c : Thread nD τ).loc main_arg1)
abbrev aDst : Ends := m ((c : Thread nD τ).loc main_arg2)
abbrev aW0 : Gcn.Mat 128 64 := m ((c : Thread nD τ).loc main_arg3)
abbrev aB0 : FVec Ideal S64 .f32 := m ((c : Thread nD τ).loc main_arg4)
abbrev aW1 : Gcn.Mat 64 64 := m ((c : Thread nD τ).loc main_arg5)
abbrev aB1 : FVec Ideal S64 .f32 := m ((c : Thread nD τ).loc main_arg6)
abbrev aW2 : Gcn.Mat 64 16 := m ((c : Thread nD τ).loc main_arg7)
abbrev aB2 : FVec Ideal S16 .f32 := m ((c : Thread nD τ).loc main_arg8)

/-- The six kernel regions' result arrays, each from the one before. -/
def y0 : Gcn.Mat 100000 64 := Gcn.matScale (aX m c) (aW0 m c) (col (aSrc m c))
def y1 : Gcn.Mat 100000 64 :=
  Gcn.scaleBiasRelu (agg64 (aSrc m c) (aDst m c) (y0 m c)) (row64 (aB0 m c)) (col (aDst m c))
def y2 : Gcn.Mat 100000 64 := Gcn.scale (y1 m c) (col (aSrc m c))
def y3 : Gcn.Mat 100000 64 :=
  Gcn.scaleMatBiasRelu (agg64 (aSrc m c) (aDst m c) (y2 m c)) (aW1 m c) (row64 (aB1 m c)) (col (aDst m c))
def y4 : Gcn.Mat 100000 16 := Gcn.matScale (y3 m c) (aW2 m c) (col (aSrc m c))
def y5 : Gcn.Mat 100000 16 :=
  Gcn.scaleBias (agg16 (aSrc m c) (aDst m c) (y4 m c)) (row16 (aB2 m c)) (col (aDst m c))

/-! ### A buffer nothing has written yet holds its launch contents -/

theorem keep5 {r : Ref sig .tc} (h0 : r ∉ degW0 := by decide) :
    W5 m ρ c (Proc.devRef .tc r) = m ((c : Thread nD τ).loc r) :=
  keepDeg0 (W0 m ρ c) h0
theorem keep6 {r : Ref sig .tc} (h0 : r ∉ degW0 := by decide) (r0 : ∀ w, Pipeline.arrRef spec0 w ≠ r := by decide) :
    W6 m ρ c (Proc.devRef .tc r) = m ((c : Thread nD τ).loc r) :=
  (W6_of_ne m ρ c r r0).trans (keep5 m ρ c h0)
theorem keep7 {r : Ref sig .tc} (h0 : r ∉ degW0 := by decide) (r0 : ∀ w, Pipeline.arrRef spec0 w ≠ r := by decide)
    (h1 : r ∉ aggW1 := by decide) :
    W7 m ρ c (Proc.devRef .tc r) = m ((c : Thread nD τ).loc r) :=
  (keepAgg1 (W6 m ρ c) h1).trans (keep6 m ρ c h0 r0)
theorem keep8 {r : Ref sig .tc} (h0 : r ∉ degW0 := by decide) (r0 : ∀ w, Pipeline.arrRef spec0 w ≠ r := by decide)
    (h1 : r ∉ aggW1 := by decide) (r1 : ∀ w, Pipeline.arrRef spec1 w ≠ r := by decide) :
    W8 m ρ c (Proc.devRef .tc r) = m ((c : Thread nD τ).loc r) :=
  (W8_of_ne m ρ c r r1).trans (keep7 m ρ c h0 r0 h1)
theorem keep13 {r : Ref sig .tc} (h0 : r ∉ degW0 := by decide) (r0 : ∀ w, Pipeline.arrRef spec0 w ≠ r := by decide)
    (h1 : r ∉ aggW1 := by decide) (r1 : ∀ w, Pipeline.arrRef spec1 w ≠ r := by decide) (h2 : r ∉ degW2 := by decide) :
    W13 m ρ c (Proc.devRef .tc r) = m ((c : Thread nD τ).loc r) :=
  (keepDeg2 (W8 m ρ c) h2).trans (keep8 m ρ c h0 r0 h1 r1)
theorem keep14 {r : Ref sig .tc} (h0 : r ∉ degW0 := by decide) (r0 : ∀ w, Pipeline.arrRef spec0 w ≠ r := by decide)
    (h1 : r ∉ aggW1 := by decide) (r1 : ∀ w, Pipeline.arrRef spec1 w ≠ r := by decide) (h2 : r ∉ degW2 := by decide)
    (r2 : ∀ w, Pipeline.arrRef spec2 w ≠ r := by decide) :
    W14 m ρ c (Proc.devRef .tc r) = m ((c : Thread nD τ).loc r) :=
  (W14_of_ne m ρ c r r2).trans (keep13 m ρ c h0 r0 h1 r1 h2)
theorem keep15 {r : Ref sig .tc} (h0 : r ∉ degW0 := by decide) (r0 : ∀ w, Pipeline.arrRef spec0 w ≠ r := by decide)
    (h1 : r ∉ aggW1 := by decide) (r1 : ∀ w, Pipeline.arrRef spec1 w ≠ r := by decide) (h2 : r ∉ degW2 := by decide)
    (r2 : ∀ w, Pipeline.arrRef spec2 w ≠ r := by decide) (h3 : r ∉ aggW3 := by decide) :
    W15 m ρ c (Proc.devRef .tc r) = m ((c : Thread nD τ).loc r) :=
  (keepAgg3 (W14 m ρ c) h3).trans (keep14 m ρ c h0 r0 h1 r1 h2 r2)
theorem keep16 {r : Ref sig .tc} (h0 : r ∉ degW0 := by decide) (r0 : ∀ w, Pipeline.arrRef spec0 w ≠ r := by decide)
    (h1 : r ∉ aggW1 := by decide) (r1 : ∀ w, Pipeline.arrRef spec1 w ≠ r := by decide) (h2 : r ∉ degW2 := by decide)
    (r2 : ∀ w, Pipeline.arrRef spec2 w ≠ r := by decide) (h3 : r ∉ aggW3 := by decide)
    (r3 : ∀ w, Pipeline.arrRef spec3 w ≠ r := by decide) :
    W16 m ρ c (Proc.devRef .tc r) = m ((c : Thread nD τ).loc r) :=
  (W16_of_ne m ρ c r r3).trans (keep15 m ρ c h0 r0 h1 r1 h2 r2 h3)
theorem keep21 {r : Ref sig .tc} (h0 : r ∉ degW0 := by decide) (r0 : ∀ w, Pipeline.arrRef spec0 w ≠ r := by decide)
    (h1 : r ∉ aggW1 := by decide) (r1 : ∀ w, Pipeline.arrRef spec1 w ≠ r := by decide) (h2 : r ∉ degW2 := by decide)
    (r2 : ∀ w, Pipeline.arrRef spec2 w ≠ r := by decide) (h3 : r ∉ aggW3 := by decide)
    (r3 : ∀ w, Pipeline.arrRef spec3 w ≠ r := by decide) (h4 : r ∉ degW4 := by decide) :
    W21 m ρ c (Proc.devRef .tc r) = m ((c : Thread nD τ).loc r) :=
  (keepDeg4 (W16 m ρ c) h4).trans (keep16 m ρ c h0 r0 h1 r1 h2 r2 h3 r3)
theorem keep22 {r : Ref sig .tc} (h0 : r ∉ degW0 := by decide) (r0 : ∀ w, Pipeline.arrRef spec0 w ≠ r := by decide)
    (h1 : r ∉ aggW1 := by decide) (r1 : ∀ w, Pipeline.arrRef spec1 w ≠ r := by decide) (h2 : r ∉ degW2 := by decide)
    (r2 : ∀ w, Pipeline.arrRef spec2 w ≠ r := by decide) (h3 : r ∉ aggW3 := by decide)
    (r3 : ∀ w, Pipeline.arrRef spec3 w ≠ r := by decide) (h4 : r ∉ degW4 := by decide)
    (r4 : ∀ w, Pipeline.arrRef spec4 w ≠ r := by decide) :
    W22 m ρ c (Proc.devRef .tc r) = m ((c : Thread nD τ).loc r) :=
  (W22_of_ne m ρ c r r4).trans (keep21 m ρ c h0 r0 h1 r1 h2 r2 h3 r3 h4)

/-! ### The first layer: region 0, the aggregation, region 1 -/

theorem b5_src : W5 m ρ c (Proc.devRef .tc main_v10) = col (aSrc m c) := deg0_src (W0 m ρ c)
theorem b5_dst : W5 m ρ c (Proc.devRef .tc main_v12) = col (aDst m c) := deg0_dst (W0 m ρ c)

theorem b6_y0 : W6 m ρ c (Proc.devRef .tc main_v13) = y0 m c := by
  have e0 : V5 m ρ c main_arg0 = aX m c := keep5 m ρ c (r := main_arg0)
  have e1 : V5 m ρ c main_arg3 = aW0 m c := keep5 m ρ c (r := main_arg3)
  have e2 : V5 m ρ c main_v10 = col (aSrc m c) := b5_src m ρ c
  exact ((W6_arr m ρ c 3).trans (arr0 (V5 m ρ) c)).trans (by unfold y0; rw [e0, e1, e2])
theorem b6_dst : W6 m ρ c (Proc.devRef .tc main_v12) = col (aDst m c) :=
  (W6_of_ne m ρ c main_v12 (by decide)).trans (b5_dst m ρ c)

theorem b7_agg : W7 m ρ c (Proc.devRef .tc main_v23) = agg64 (aSrc m c) (aDst m c) (y0 m c) :=
  (agg1_val (W6 m ρ c)).trans (by rw [keep6 m ρ c (r := main_arg1), keep6 m ρ c (r := main_arg2), b6_y0 m ρ c])
theorem b7_bias : W7 m ρ c (Proc.devRef .tc main_v24) = row64 (aB0 m c) :=
  (agg1_bias (W6 m ρ c)).trans (by rw [keep6 m ρ c (r := main_arg4)])
theorem b7_dst : W7 m ρ c (Proc.devRef .tc main_v12) = col (aDst m c) :=
  (keepAgg1 (W6 m ρ c) (by decide)).trans (b6_dst m ρ c)

theorem b8_y1 : W8 m ρ c (Proc.devRef .tc main_v25) = y1 m c := by
  have e0 : V7 m ρ c main_v23 = agg64 (aSrc m c) (aDst m c) (y0 m c) := b7_agg m ρ c
  have e1 : V7 m ρ c main_v24 = row64 (aB0 m c) := b7_bias m ρ c
  have e2 : V7 m ρ c main_v12 = col (aDst m c) := b7_dst m ρ c
  exact ((W8_arr m ρ c 3).trans (arr1 (V7 m ρ) c)).trans (by unfold y1; rw [e0, e1, e2])

/-! ### The second layer: region 2, the aggregation, region 3 -/

theorem b13_y1 : W13 m ρ c (Proc.devRef .tc main_v25) = y1 m c :=
  (keepDeg2 (W8 m ρ c) (by decide)).trans (b8_y1 m ρ c)
theorem b13_src : W13 m ρ c (Proc.devRef .tc main_v36) = col (aSrc m c) :=
  (deg2_src (W8 m ρ c)).trans (by rw [keep8 m ρ c (r := main_arg1)])
theorem b13_dst : W13 m ρ c (Proc.devRef .tc main_v38) = col (aDst m c) :=
  (deg2_dst (W8 m ρ c)).trans (by rw [keep8 m ρ c (r := main_arg2)])

theorem b14_y2 : W14 m ρ c (Proc.devRef .tc main_v39) = y2 m c := by
  have e0 : V13 m ρ c main_v25 = y1 m c := b13_y1 m ρ c
  have e1 : V13 m ρ c main_v36 = col (aSrc m c) := b13_src m ρ c
  exact ((W14_arr m ρ c 2).trans (arr2 (V13 m ρ) c)).trans (by unfold y2; rw [e0, e1])
theorem b14_dst : W14 m ρ c (Proc.devRef .tc main_v38) = col (aDst m c) :=
  (W14_of_ne m ρ c main_v38 (by decide)).trans (b13_dst m ρ c)

theorem b15_agg : W15 m ρ c (Proc.devRef .tc main_v49) = agg64 (aSrc m c) (aDst m c) (y2 m c) :=
  (agg3_val (W14 m ρ c)).trans (by rw [keep14 m ρ c (r := main_arg1), keep14 m ρ c (r := main_arg2), b14_y2 m ρ c])
theorem b15_bias : W15 m ρ c (Proc.devRef .tc main_v50) = row64 (aB1 m c) :=
  (agg3_bias (W14 m ρ c)).trans (by rw [keep14 m ρ c (r := main_arg6)])
theorem b15_dst : W15 m ρ c (Proc.devRef .tc main_v38) = col (aDst m c) :=
  (keepAgg3 (W14 m ρ c) (by decide)).trans (b14_dst m ρ c)

theorem b16_y3 : W16 m ρ c (Proc.devRef .tc main_v51) = y3 m c := by
  have e0 : V15 m ρ c main_v49 = agg64 (aSrc m c) (aDst m c) (y2 m c) := b15_agg m ρ c
  have e1 : V15 m ρ c main_arg5 = aW1 m c := keep15 m ρ c (r := main_arg5)
  have e2 : V15 m ρ c main_v50 = row64 (aB1 m c) := b15_bias m ρ c
  have e3 : V15 m ρ c main_v38 = col (aDst m c) := b15_dst m ρ c
  exact ((W16_arr m ρ c 4).trans (arr3 (V15 m ρ) c)).trans (by unfold y3; rw [e0, e1, e2, e3])

/-! ### The third layer: region 4, the aggregation, region 5 -/

theorem b21_y3 : W21 m ρ c (Proc.devRef .tc main_v51) = y3 m c :=
  (keepDeg4 (W16 m ρ c) (by decide)).trans (b16_y3 m ρ c)
theorem b21_src : W21 m ρ c (Proc.devRef .tc main_v62) = col (aSrc m c) :=
  (deg4_src (W16 m ρ c)).trans (by rw [keep16 m ρ c (r := main_arg1)])
theorem b21_dst : W21 m ρ c (Proc.devRef .tc main_v64) = col (aDst m c) :=
  (deg4_dst (W16 m ρ c)).trans (by rw [keep16 m ρ c (r := main_arg2)])

theorem b22_y4 : W22 m ρ c (Proc.devRef .tc main_v65) = y4 m c := by
  have e0 : V21 m ρ c main_v51 = y3 m c := b21_y3 m ρ c
  have e1 : V21 m ρ c main_arg7 = aW2 m c := keep21 m ρ c (r := main_arg7)
  have e2 : V21 m ρ c main_v62 = col (aSrc m c) := b21_src m ρ c
  exact ((W22_arr m ρ c 3).trans (arr4 (V21 m ρ) c)).trans (by unfold y4; rw [e0, e1, e2])
theorem b22_dst : W22 m ρ c (Proc.devRef .tc main_v64) = col (aDst m c) :=
  (W22_of_ne m ρ c main_v64 (by decide)).trans (b21_dst m ρ c)

theorem b23_agg : W23 m ρ c (Proc.devRef .tc main_v75) = agg16 (aSrc m c) (aDst m c) (y4 m c) :=
  (agg5_val (W22 m ρ c)).trans (by rw [keep22 m ρ c (r := main_arg1), keep22 m ρ c (r := main_arg2), b22_y4 m ρ c])
theorem b23_bias : W23 m ρ c (Proc.devRef .tc main_v76) = row16 (aB2 m c) :=
  (agg5_bias (W22 m ρ c)).trans (by rw [keep22 m ρ c (r := main_arg8)])
theorem b23_dst : W23 m ρ c (Proc.devRef .tc main_v64) = col (aDst m c) :=
  (keepAgg5 (W22 m ρ c) (by decide)).trans (b22_dst m ρ c)

theorem b24_y5 : W24 m ρ c (Proc.devRef .tc main_v77) = y5 m c := by
  have e0 : V23 m ρ c main_v75 = agg16 (aSrc m c) (aDst m c) (y4 m c) := b23_agg m ρ c
  have e1 : V23 m ρ c main_v76 = row16 (aB2 m c) := b23_bias m ρ c
  have e2 : V23 m ρ c main_v64 = col (aDst m c) := b23_dst m ρ c
  exact ((W24_arr m ρ c 3).trans (arr5 (V23 m ρ) c)).trans (by unfold y5; rw [e0, e1, e2])

/-- The six results composed are the three layers. -/
theorem y5_eq : y5 m c = Gcn.net (agg64 (aSrc m c) (aDst m c)) (agg16 (aSrc m c) (aDst m c)) (col (aSrc m c)) (col (aDst m c))
    (aX m c) (aW0 m c) (row64 (aB0 m c)) (aW1 m c) (row64 (aB1 m c)) (aW2 m c) (row16 (aB2 m c)) := by
  unfold y5 y4 y3 y2 y1 y0 Gcn.net
  with_reducible rfl

end Chain

variable (m : (ℓ : Loc nD τ sig) → Buf (Elt Ideal) ℓ) (ρ : Dev nD → PrngReg)

/-- The result buffer at the last segment boundary is the three layers of the arguments as launched. -/
theorem result_eq (c : Dev nD) :
    W24 m ρ c (Proc.devRef .tc main_v77)
      = Gcn.net (agg64 (m ((c : Thread nD τ).loc main_arg1)) (m ((c : Thread nD τ).loc main_arg2)))
          (agg16 (m ((c : Thread nD τ).loc main_arg1)) (m ((c : Thread nD τ).loc main_arg2)))
          (col (m ((c : Thread nD τ).loc main_arg1))) (col (m ((c : Thread nD τ).loc main_arg2)))
          (m ((c : Thread nD τ).loc main_arg0)) (m ((c : Thread nD τ).loc main_arg3)) (row64 (m ((c : Thread nD τ).loc main_arg4)))
          (m ((c : Thread nD τ).loc main_arg5)) (row64 (m ((c : Thread nD τ).loc main_arg6)))
          (m ((c : Thread nD τ).loc main_arg7)) (row16 (m ((c : Thread nD τ).loc main_arg8))) :=
  (b24_y5 m ρ c).trans (y5_eq m c)

end Cert.KernelIdeal.Val

end
-- ==== Proof.Ref.Dense.lean ====
/-
  The dense pieces of the three layers, read off the host operations that compute them.  Each stage the layers are cut
  into (Gcn.matScale, scale, scaleBias, scaleBiasRelu, scaleMatBiasRelu) is written by the host as a matrix product, a
  product with a column spread along the features, a sum with a row spread along the rows, and a maximum with the zero
  word spread everywhere.  Reading each spread array and each product at an index gives the stage's own formula.  The
  lemmas are stated over arbitrary arrays of the literal shapes, so one lemma serves every layer that has the shape.
-/
import proofs.«168125_j30279519437683_1_alg».proof.Proof.Gen.ReferenceIdeal.Read
import proofs.«168125_j30279519437683_1_alg».proof.Proof.Spec
import proofs.«168125_j30279519437683_1_alg».proof.Proof.LibPlainDot

noncomputable section

namespace Cert.ReferenceIdeal.Dense

open Cert.ReferenceIdeal Cert.ReferenceIdeal.Gen Cert.ReferenceIdeal.Read Idealize.ShloMosaic Idealize.ShloMosaic.TcCoe Idealize.SL.Sem Idealize.ShloMosaic.ValueIdx

/-! ## Layout operations read at an index -/

/-- A column spread along 64 features reads the column's entry of the row. -/
theorem col64_apply (s : FVec Ideal S100000x1 .f32) (i : S100000x64.Idx) :
    broadcastInDim S100000x64 ![0, 1] bcast_S100000x1_S100000x64_0_1 s i = s (ix2 (i 0) (0 : Fin 1)) :=
  broadcastInDim_apply _ bcast_S100000x1_S100000x64_0_1 s i (ix2 (i 0) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- A column spread along 16 features reads the column's entry of the row. -/
theorem col16_apply (s : FVec Ideal S100000x1 .f32) (i : S100000x16.Idx) :
    broadcastInDim S100000x16 ![0, 1] bcast_S100000x1_S100000x16_0_1 s i = s (ix2 (i 0) (0 : Fin 1)) :=
  broadcastInDim_apply _ bcast_S100000x1_S100000x16_0_1 s i (ix2 (i 0) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- A row of 64 entries spread along the rows reads the row's entry of the column. -/
theorem row64_apply (b : FVec Ideal S1x64 .f32) (i : S100000x64.Idx) :
    broadcastInDim S100000x64 ![0, 1] bcast_S1x64_S100000x64_0_1 b i = b (ix2 (0 : Fin 1) (i 1)) :=
  broadcastInDim_apply _ bcast_S1x64_S100000x64_0_1 b i (ix2 (0 : Fin 1) (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- A row of 16 entries spread along the rows reads the row's entry of the column. -/
theorem row16_apply (b : FVec Ideal S1x16 .f32) (i : S100000x16.Idx) :
    broadcastInDim S100000x16 ![0, 1] bcast_S1x16_S100000x16_0_1 b i = b (ix2 (0 : Fin 1) (i 1)) :=
  broadcastInDim_apply _ bcast_S1x16_S100000x16_0_1 b i (ix2 (0 : Fin 1) (i 1)) (fun a => match a with
    | ⟨0, _⟩ => by show 0 = if (1 : Nat) = 1 then 0 else (i 0).val; rw [if_pos rfl]
    | ⟨1, _⟩ => by show (i 1).val = if (16 : Nat) = 1 then 0 else (i 1).val; rw [if_neg (by decide)])

/-- The zero word spread over a 64-feature array reads the zero word everywhere. -/
theorem zero64_apply (i : S100000x64.Idx) :
    broadcastInDim S100000x64 ![] bcast_S_S100000x64 (constant (F := Ideal) S_ .f32 0x00000000#32) i = Gcn.zeroWord :=
  (broadcastInDim_apply _ bcast_S_S100000x64 (constant (F := Ideal) S_ .f32 0x00000000#32) i (fun a => a.elim0)
    (fun a => a.elim0)).trans rfl

/-! ## The matrix products read at an index

Each of the three products contracts the left operand's second axis with the right operand's first and has no batch
axis: the rows-by-columns pattern, so its entry at (r, c) is the sum over k of l[r,k] · w[k,c]. -/

theorem dims128 : dot_S100000x128_S128x64_S100000x64_1_0_0_1_n_n = DotDims.plain 100000 128 64 := rfl
theorem dims64 : dot_S100000x64_S64x64_S100000x64_1_0_0_1_n_n = DotDims.plain 100000 64 64 := rfl
theorem dims16 : dot_S100000x64_S64x16_S100000x16_1_0_0_1_n_n = DotDims.plain 100000 64 16 := rfl

theorem dot128_apply (x : FVec Ideal S100000x128 .f32) (w : FVec Ideal S128x64 .f32) (i : S100000x64.Idx) :
    Host.dotGeneral dot_S100000x128_S128x64_S100000x64_1_0_0_1_n_n none x w i
      = ∑ k : Fin 128, x (ix2 (i 0) k) * w (ix2 k (i 1)) := by
  rw [dims128]
  exact plain_dotGeneral_apply none .single x w i

theorem dot64_apply (x : FVec Ideal S100000x64 .f32) (w : FVec Ideal S64x64 .f32) (i : S100000x64.Idx) :
    Host.dotGeneral dot_S100000x64_S64x64_S100000x64_1_0_0_1_n_n none x w i
      = ∑ k : Fin 64, x (ix2 (i 0) k) * w (ix2 k (i 1)) := by
  rw [dims64]
  exact plain_dotGeneral_apply none .single x w i

theorem dot16_apply (x : FVec Ideal S100000x64 .f32) (w : FVec Ideal S64x16 .f32) (i : S100000x16.Idx) :
    Host.dotGeneral dot_S100000x64_S64x16_S100000x16_1_0_0_1_n_n none x w i
      = ∑ k : Fin 64, x (ix2 (i 0) k) * w (ix2 k (i 1)) := by
  rw [dims16]
  exact plain_dotGeneral_apply none .single x w i

/-! ## The six dense stages, in the form the host operations write them -/

/-- Layer one before aggregation: (x w)[r,c] · s[r]. -/
theorem matScale128 (x : FVec Ideal S100000x128 .f32) (w : FVec Ideal S128x64 .f32) (s : FVec Ideal S100000x1 .f32) :
    mulf (Host.dotGeneral dot_S100000x128_S128x64_S100000x64_1_0_0_1_n_n none x w)
        (broadcastInDim S100000x64 ![0, 1] bcast_S100000x1_S100000x64_0_1 s)
      = Gcn.matScale x w s := by
  funext i
  rw [mulf_apply, dot128_apply, col64_apply]
  rfl

/-- Layer one after aggregation: max (a[r,c] · s[r] + b[c]) 0. -/
theorem scaleBiasRelu64 (a : FVec Ideal S100000x64 .f32) (b : FVec Ideal S1x64 .f32) (s : FVec Ideal S100000x1 .f32) :
    maximumf (addf (mulf a (broadcastInDim S100000x64 ![0, 1] bcast_S100000x1_S100000x64_0_1 s))
          (broadcastInDim S100000x64 ![0, 1] bcast_S1x64_S100000x64_0_1 b))
        (broadcastInDim S100000x64 ![] bcast_S_S100000x64 (constant (F := Ideal) S_ .f32 0x00000000#32))
      = Gcn.scaleBiasRelu a b s := by
  funext i
  rw [maximumf_apply, addf_apply, mulf_apply, col64_apply, row64_apply, zero64_apply]
  rfl

/-- Layer two before aggregation: a[r,c] · s[r]. -/
theorem scale64 (a : FVec Ideal S100000x64 .f32) (s : FVec Ideal S100000x1 .f32) :
    mulf a (broadcastInDim S100000x64 ![0, 1] bcast_S100000x1_S100000x64_0_1 s) = Gcn.scale a s := by
  funext i
  rw [mulf_apply, col64_apply]
  rfl

/-- Layer two after aggregation: max ((∑ₖ (a[r,k] · s[r]) · w[k,c]) + b[c]) 0. -/
theorem scaleMatBiasRelu64 (a : FVec Ideal S100000x64 .f32) (w : FVec Ideal S64x64 .f32) (b : FVec Ideal S1x64 .f32)
    (s : FVec Ideal S100000x1 .f32) :
    maximumf (addf (Host.dotGeneral dot_S100000x64_S64x64_S100000x64_1_0_0_1_n_n none
            (mulf a (broadcastInDim S100000x64 ![0, 1] bcast_S100000x1_S100000x64_0_1 s)) w)
          (broadcastInDim S100000x64 ![0, 1] bcast_S1x64_S100000x64_0_1 b))
        (broadcastInDim S100000x64 ![] bcast_S_S100000x64 (constant (F := Ideal) S_ .f32 0x00000000#32))
      = Gcn.scaleMatBiasRelu a w b s := by
  funext i
  rw [maximumf_apply, addf_apply, dot64_apply, row64_apply, zero64_apply]
  have hs : ∀ k : Fin 64, mulf a (broadcastInDim S100000x64 ![0, 1] bcast_S100000x1_S100000x64_0_1 s) (ix2 (i 0) k)
      = a (ix2 (i 0) k) * s (ix2 (i 0) (0 : Fin 1)) := fun k => by
    rw [mulf_apply, col64_apply]
  simp only [hs]
  rfl

/-- Layer three before aggregation: (a w)[r,c] · s[r]. -/
theorem matScale16 (a : FVec Ideal S100000x64 .f32) (w : FVec Ideal S64x16 .f32) (s : FVec Ideal S100000x1 .f32) :
    mulf (Host.dotGeneral dot_S100000x64_S64x16_S100000x16_1_0_0_1_n_n none a w)
        (broadcastInDim S100000x16 ![0, 1] bcast_S100000x1_S100000x16_0_1 s)
      = Gcn.matScale a w s := by
  funext i
  rw [mulf_apply, dot16_apply, col16_apply]
  rfl

/-- Layer three after aggregation: a[r,c] · s[r] + b[c]. -/
theorem scaleBias16 (a : FVec Ideal S100000x16 .f32) (b : FVec Ideal S1x16 .f32) (s : FVec Ideal S100000x1 .f32) :
    addf (mulf a (broadcastInDim S100000x16 ![0, 1] bcast_S100000x1_S100000x16_0_1 s))
        (broadcastInDim S100000x16 ![0, 1] bcast_S1x16_S100000x16_0_1 b)
      = Gcn.scaleBias a b s := by
  funext i
  rw [addf_apply, mulf_apply, col16_apply, row16_apply]
  rfl

end Cert.ReferenceIdeal.Dense

end
-- ==== Proof.Ref.Net.lean ====
/-
  The reference program's result as one function of its arguments: its host operations, stage by stage, are the
  three layers (Gcn.net) around its own degree factors and neighbour aggregation.
-/
import proofs.«168125_j30279519437683_1_alg».proof.Proof.Gen.ReferenceIdeal.Read
import proofs.«168125_j30279519437683_1_alg».proof.Proof.Spec
import proofs.«168125_j30279519437683_1_alg».proof.Proof.LibPlainDot
import proofs.«168125_j30279519437683_1_alg».proof.Proof.Ref.Dense

noncomputable section

namespace Cert.ReferenceIdeal.Val

open Cert.ReferenceIdeal Cert.ReferenceIdeal.Gen Cert.ReferenceIdeal.Read Idealize.ShloMosaic Idealize.ShloMosaic.TcCoe Idealize.SL.Sem

/-- An edge-end list: one node number per edge. -/
abbrev Ends : Type := (⟨S1600000, .i32⟩ : BufTy).Contents (Elt Ideal)

/-- One over the root of max(1, the number of edges with this end at the node), node by node. -/
def deg (x : Ends) : FVec Ideal S100000 .f32 :=
  Host.rsqrt (maximumf (broadcastInDim S100000 ![] bcast_S_S100000 (id (constant (F := Ideal) S_ .f32 0x3F800000#32)))
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 x)
      (broadcastInDim S1600000 ![] bcast_S_S1600000 (constant (F := Ideal) S_ .f32 0x3F800000#32))))

/-- The degree factors as a column. -/
def col (x : Ends) : Gcn.Mat 100000 1 := broadcastInDim S100000x1 ![0] bcast_S100000_S100000x1_0 (deg x)

/-- A bias vector as a row. -/
def row64 (b : FVec Ideal S64 .f32) : Gcn.Mat 1 64 := broadcastInDim S1x64 ![1] bcast_S64_S1x64_1 b
def row16 (b : FVec Ideal S16 .f32) : Gcn.Mat 1 16 := broadcastInDim S1x16 ![1] bcast_S16_S1x16_1 b

/-- A source list with negative entries wrapped around once (numpy's indexing convention). -/
def wrap (x : Ends) : Ends :=
  select (cmpi .slt x (broadcastInDim S1600000 ![] bcast_S_S1600000 (constantI S_ 32 0#32)))
    (addi x (broadcastInDim S1600000 ![] bcast_S_S1600000 (constantI S_ 32 100000#32))) x

/-- h ↦ A h on 64 features: row dst[e] of the result collects row src[e] of h over the edges e. -/
def agg64 (src dst : Ends) (h : Gcn.Mat 100000 64) : Gcn.Mat 100000 64 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0 (wrap src)))

/-- The same on 16 features. -/
def agg16 (src dst : Ends) (h : Gcn.Mat 100000 16) : Gcn.Mat 100000 16 :=
  Host.scatterAdd scatter_S100000x16_S1600000x1_S1600000x16_1_0_0_1
    (broadcastInDim S100000x16 ![] bcast_S_S100000x16 (constant (F := Ideal) S_ .f32 0x00000000#32))
    (broadcastInDim S1600000x1 ![0] bcast_S1600000_S1600000x1_0 dst)
    (Host.gather gather_S100000x16_S1600000x1_S1600000x16_1_0_n_n_0_1_116 h
      (broadcastInDim S1600000x1 ![0] bcast_S1600000_S1600000x1_0 (wrap src)))

/-! ## The reference stage by stage

The reference recomputes the degree factors in every layer and spreads each bias anew; all of these are the same host
terms as col and row64 / row16 of the arguments. -/

section Stages

variable (x0 : (⟨S100000x128, .f32⟩ : BufTy).Contents (Elt Ideal)) (x1 x2 : Ends)
  (x3 : (⟨S128x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))
  (x7 : (⟨S64x16, .f32⟩ : BufTy).Contents (Elt Ideal)) (x8 : (⟨S16, .f32⟩ : BufTy).Contents (Elt Ideal))

/-- Layer one's source-degree column. -/
theorem v11_eq : val_main_v11 (F := Ideal) x1 = col x1 := by
  unfold val_main_v11 val_main_v10 val_main_v4 val_main_call0_v1 val_main_call0_v0 val_main_cst_1 val_main_v3
    val_main_v1 val_main_cst_0 val_main_v2 val_main_v0 val_main_cst col deg
  rfl

/-- Layer one's target-degree column. -/
theorem v25_eq : val_main_v25 (F := Ideal) x2 = col x2 := by
  unfold val_main_v25 val_main_v24 val_main_v8 val_main_call1_v1 val_main_call1_v0 val_main_cst_3 val_main_v7
    val_main_v5 val_main_cst_2 val_main_v6 val_main_v0 val_main_cst col deg
  rfl

/-- Layer two's source-degree column. -/
theorem v42_eq : val_main_v42 (F := Ideal) x1 = col x1 := by
  unfold val_main_v42 val_main_v41 val_main_v36 val_main_call3_v1 val_main_call3_v0 val_main_cst_8 val_main_v35
    val_main_v33 val_main_cst_7 val_main_v34 val_main_v32 val_main_cst_6 col deg
  rfl

/-- Layer two's target-degree column. -/
theorem v56_eq : val_main_v56 (F := Ideal) x2 = col x2 := by
  unfold val_main_v56 val_main_v55 val_main_v40 val_main_call4_v1 val_main_call4_v0 val_main_cst_10 val_main_v39
    val_main_v37 val_main_cst_9 val_main_v38 val_main_v32 val_main_cst_6 col deg
  rfl

/-- Layer three's source-degree column. -/
theorem v75_eq : val_main_v75 (F := Ideal) x1 = col x1 := by
  unfold val_main_v75 val_main_v74 val_main_v68 val_main_call6_v1 val_main_call6_v0 val_main_cst_16 val_main_v67
    val_main_v65 val_main_cst_15 val_main_v66 val_main_v64 val_main_cst_14 col deg
  rfl

/-- Layer three's target-degree column. -/
theorem v89_eq : val_main_v89 (F := Ideal) x2 = col x2 := by
  unfold val_main_v89 val_main_v88 val_main_v72 val_main_call7_v1 val_main_call7_v0 val_main_cst_18 val_main_v71
    val_main_v69 val_main_cst_17 val_main_v70 val_main_v64 val_main_cst_14 col deg
  rfl

/-- The three bias rows. -/
theorem v28_eq : val_main_v28 (F := Ideal) x4 = row64 x4 := rfl
theorem v60_eq : val_main_v60 (F := Ideal) x6 = row64 x6 := rfl
theorem v92_eq : val_main_v92 (F := Ideal) x8 = row16 x8 := rfl

/-- Layer one before aggregation. -/
theorem v13_eq : val_main_v13 (F := Ideal) x0 x1 x3 = Gcn.matScale x0 x3 (col x1) := by
  unfold val_main_v13 val_main_v9 val_main_v12
  rw [v11_eq]
  exact Dense.matScale128 x0 x3 (col x1)

/-- Layer one's aggregation: the scatter-add of the gather at the wrapped sources. -/
theorem v23_eq : val_main_v23 (F := Ideal) x0 x1 x2 x3 = agg64 x1 x2 (val_main_v13 (F := Ideal) x0 x1 x3) := by
  unfold val_main_v23 val_main_v21 val_main_cst_5 val_main_v22 val_main_v20 val_main_v19 val_main_v18 val_main_v15
    val_main_v14 val_main_c val_main_v17 val_main_v16 val_main_c_4 agg64 wrap
  rfl

/-- Layer one after aggregation. -/
theorem v31_eq : val_main_v31 (F := Ideal) x0 x1 x2 x3 x4
    = Gcn.scaleBiasRelu (val_main_v23 (F := Ideal) x0 x1 x2 x3) (row64 x4) (col x2) := by
  unfold val_main_v31 val_main_v30 val_main_v27 val_main_v26 val_main_v29 val_main_call2_v0 val_main_call2_cst
  rw [v25_eq, v28_eq]
  exact Dense.scaleBiasRelu64 _ _ _

/-- Layer two before aggregation. -/
theorem v44_eq : val_main_v44 (F := Ideal) x0 x1 x2 x3 x4
    = Gcn.scale (val_main_v31 (F := Ideal) x0 x1 x2 x3 x4) (col x1) := by
  unfold val_main_v44 val_main_v43
  rw [v42_eq]
  exact Dense.scale64 _ _

/-- Layer two's aggregation. -/
theorem v54_eq : val_main_v54 (F := Ideal) x0 x1 x2 x3 x4
    = agg64 x1 x2 (val_main_v44 (F := Ideal) x0 x1 x2 x3 x4) := by
  unfold val_main_v54 val_main_v52 val_main_cst_13 val_main_v53 val_main_v51 val_main_v50 val_main_v49 val_main_v46
    val_main_v45 val_main_c_11 val_main_v48 val_main_v47 val_main_c_12 agg64 wrap
  rfl

/-- Layer two after aggregation. -/
theorem v63_eq : val_main_v63 (F := Ideal) x0 x1 x2 x3 x4 x5 x6
    = Gcn.scaleMatBiasRelu (val_main_v54 (F := Ideal) x0 x1 x2 x3 x4) x5 (row64 x6) (col x2) := by
  unfold val_main_v63 val_main_v62 val_main_v59 val_main_v58 val_main_v57 val_main_v61 val_main_call5_v0
    val_main_call5_cst
  rw [v56_eq, v60_eq]
  exact Dense.scaleMatBiasRelu64 _ _ _ _

/-- Layer three before aggregation. -/
theorem v77_eq : val_main_v77 (F := Ideal) x0 x1 x2 x3 x4 x5 x6 x7
    = Gcn.matScale (val_main_v63 (F := Ideal) x0 x1 x2 x3 x4 x5 x6) x7 (col x1) := by
  unfold val_main_v77 val_main_v73 val_main_v76
  rw [v75_eq]
  exact Dense.matScale16 _ _ _

/-- Layer three's aggregation. -/
theorem v87_eq : val_main_v87 (F := Ideal) x0 x1 x2 x3 x4 x5 x6 x7
    = agg16 x1 x2 (val_main_v77 (F := Ideal) x0 x1 x2 x3 x4 x5 x6 x7) := by
  unfold val_main_v87 val_main_v85 val_main_cst_21 val_main_v86 val_main_v84 val_main_v83 val_main_v82 val_main_v79
    val_main_v78 val_main_c_19 val_main_v81 val_main_v80 val_main_c_20 agg16 wrap
  rfl

/-- Layer three after aggregation. -/
theorem v94_eq : val_main_v94 (F := Ideal) x0 x1 x2 x3 x4 x5 x6 x7 x8
    = Gcn.scaleBias (val_main_v87 (F := Ideal) x0 x1 x2 x3 x4 x5 x6 x7) (row16 x8) (col x2) := by
  unfold val_main_v94 val_main_v91 val_main_v90 val_main_v93
  rw [v89_eq, v92_eq]
  exact Dense.scaleBias16 _ _ _

end Stages

/-- The reference's last stage is the three layers of its arguments. -/
theorem result_eq (x0 : (⟨S100000x128, .f32⟩ : BufTy).Contents (Elt Ideal)) (x1 x2 : Ends)
    (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S64x16, .f32⟩ : BufTy).Contents (Elt Ideal)) (x8 : (⟨S16, .f32⟩ : BufTy).Contents (Elt Ideal)) :
    val_main_v94 (F := Ideal) x0 x1 x2 x3 x4 x5 x6 x7 x8
      = Gcn.net (agg64 x1 x2) (agg16 x1 x2) (col x1) (col x2) x0 x3 (row64 x4) x5 (row64 x6) x7 (row16 x8) := by
  rw [v94_eq, v87_eq, v77_eq, v63_eq, v54_eq, v44_eq, v31_eq, v23_eq, v13_eq]
  rfl

end Cert.ReferenceIdeal.Val

end
-- ==== Proof.LibColumnCast.lean ====
/-
  A vector made a column: an `[a]` array cast to `[a, 1]` read at an index. The companion of the library's row form (an
  `[a]` array cast to `[1, a]`): there the unit axis is added in front, here behind.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.Bridge.lean ====
/-
  The two programs' edge-dependent pieces are the same functions: the degree factors (the kernel program makes the
  column by a reshape, the reference by a broadcast along a new unit axis: the same array), the bias rows (likewise), and
  the neighbour aggregation (the same gather and scatter-add, term for term).
-/
import proofs.«168125_j30279519437683_1_alg».proof.Proof.KI.HostDefs
import proofs.«168125_j30279519437683_1_alg».proof.Proof.Ref.Net
import proofs.«168125_j30279519437683_1_alg».proof.Proof.LibColumnCast
import Idealize.ShloMosaic.Lib.ValueLayout
import Idealize.ShloMosaic.Lib.Pipeline.Value

noncomputable section

namespace Cert.Bridge

open Idealize.ShloMosaic Idealize.ShloMosaic.ValueIdx

/-- The degree factors: the same host term in both programs. -/
theorem deg_eq (x : Cert.KernelIdeal.Val.Ends) : Cert.KernelIdeal.Val.deg x = Cert.ReferenceIdeal.Val.deg x := rfl

/-- A vector reshaped to a column is the vector broadcast along a new trailing unit axis. -/
theorem col_eq (x : Cert.KernelIdeal.Val.Ends) : Cert.KernelIdeal.Val.col x = Cert.ReferenceIdeal.Val.col x := by
  unfold Cert.KernelIdeal.Val.col Cert.ReferenceIdeal.Val.col
  rw [deg_eq]
  generalize Cert.ReferenceIdeal.Val.deg x = y
  funext i
  obtain ⟨p, u, rfl⟩ : ∃ (p : Fin 100000) (u : Fin 1), i = ix2 p u := ⟨i 0, i 1, eq_ix2 i⟩
  rw [shapeCast_a_a1_apply]
  exact (broadcastInDim_apply _ _ y (ix2 p u) (ix1 p) (fun a => match a with
    | ⟨0, _⟩ => by show p.val = if (100000 : Nat) = 1 then 0 else p.val; rw [if_neg (by decide)])).symm

/-- A vector reshaped to a row is the vector broadcast along a new leading unit axis. -/
theorem row64_eq (b : FVec Ideal Cert.KernelIdeal.S64 .f32) : Cert.KernelIdeal.Val.row64 b = Cert.ReferenceIdeal.Val.row64 b := by
  unfold Cert.KernelIdeal.Val.row64 Cert.ReferenceIdeal.Val.row64
  funext i
  obtain ⟨u, q, rfl⟩ : ∃ (u : Fin 1) (q : Fin 64), i = ix2 u q := ⟨i 0, i 1, eq_ix2 i⟩
  rw [shapeCast_a_1a_apply]
  exact (broadcastInDim_apply _ _ b (ix2 u q) (ix1 q) (fun a => match a with
    | ⟨0, _⟩ => by show q.val = if (64 : Nat) = 1 then 0 else q.val; rw [if_neg (by decide)])).symm

theorem row16_eq (b : FVec Ideal Cert.KernelIdeal.S16 .f32) : Cert.KernelIdeal.Val.row16 b = Cert.ReferenceIdeal.Val.row16 b := by
  unfold Cert.KernelIdeal.Val.row16 Cert.ReferenceIdeal.Val.row16
  funext i
  obtain ⟨u, q, rfl⟩ : ∃ (u : Fin 1) (q : Fin 16), i = ix2 u q := ⟨i 0, i 1, eq_ix2 i⟩
  rw [shapeCast_a_1a_apply]
  exact (broadcastInDim_apply _ _ b (ix2 u q) (ix1 q) (fun a => match a with
    | ⟨0, _⟩ => by show q.val = if (16 : Nat) = 1 then 0 else q.val; rw [if_neg (by decide)])).symm

/-- The neighbour aggregation: the same gather and scatter-add in both programs. -/
theorem agg64_eq (s d : Cert.KernelIdeal.Val.Ends) : Cert.KernelIdeal.Val.agg64 s d = Cert.ReferenceIdeal.Val.agg64 s d := rfl

theorem agg16_eq (s d : Cert.KernelIdeal.Val.Ends) : Cert.KernelIdeal.Val.agg16 s d = Cert.ReferenceIdeal.Val.agg16 s d := rfl

end Cert.Bridge

end
-- ==== Proof.lean ====
/-
  Three graph-convolution layers, out = act(D_in^{-1/2} A (D_out^{-1/2} x) W + b), computed two ways.  The reference does
  everything with host operations.  The kernel program keeps on the host what depends on the edge lists (the degree
  vectors and the gather / scatter-add neighbour aggregation) and runs the dense, row-wise work in six kernel regions of
  twenty row blocks each: a product with a weight matrix and a row scaling; a row scaling, a bias and a rectifier; a
  row scaling; a row scaling, a product, a bias and a rectifier; a product and a row scaling; a row scaling and a bias.

  Over the extended reals the two programs compute one function.  A change of float format is the identity, a block
  product into a zero accumulator and the host's dot product are both the sum over the contracted index, and each
  region's twenty blocks tile its result array, so every region leaves one whole-array function of what it found
  (Proof/KI/Region0 … Region5).  Through the host stretches between the regions the kernel program's result is the
  composition Gcn.net of Proof/Spec.lean at the launch contents (Proof/KI/Chain.lean); the reference's last stage is the
  same composition around its own degree factors and aggregation (Proof/Ref/Net.lean); and those edge-dependent pieces
  are term for term the same in both programs, the column and row forms differing only in how a unit axis is added
  (Proof/Bridge.lean).  No algebraic law beyond this re-reading is needed, so the precondition is not opened.
  The frames of the two kernel programs are the generated ones; the reference's is its generated run with the result
  dropped; the idealization rewrote no operation.
-/
import proofs.«168125_j30279519437683_1_alg».proof.Defs
import proofs.«168125_j30279519437683_1_alg».proof.Proof.Gen.Kernel
import proofs.«168125_j30279519437683_1_alg».proof.Proof.Gen.Kernel.Frame
import proofs.«168125_j30279519437683_1_alg».proof.Proof.Gen.KernelIdeal
import proofs.«168125_j30279519437683_1_alg».proof.Proof.Gen.KernelIdeal.Frame
import proofs.«168125_j30279519437683_1_alg».proof.Proof.Gen.ReferenceIdeal
import proofs.«168125_j30279519437683_1_alg».proof.Proof.Gen.ReferenceIdeal.Run
import proofs.«168125_j30279519437683_1_alg».proof.Proof.Gen.ReferenceIdeal.Read
import proofs.«168125_j30279519437683_1_alg».proof.Proof.Gen.Pre_finite_inputs
import proofs.«168125_j30279519437683_1_alg».proof.Proof.KI.Run
import proofs.«168125_j30279519437683_1_alg».proof.Proof.KI.Chain
import proofs.«168125_j30279519437683_1_alg».proof.Proof.Ref.Net
import proofs.«168125_j30279519437683_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the three layers of those arguments in their
    result arrays. -/
theorem algebraic : Cert.algebraic_KernelIdeal_ReferenceIdeal := by
  intro m ρ m' ρ' _ hagree
  refine ⟨fun c => Cert.KernelIdeal.Gen.W24 m ρ c (Proc.devRef .tc Cert.KernelIdeal.main_v77),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  show _ = Cert.KernelIdeal.Gen.W24 m ρ c (Proc.devRef .tc Cert.KernelIdeal.main_v77)
  rw [Cert.ReferenceIdeal.Read.val_main_v94_eq, Cert.ReferenceIdeal.Val.result_eq, Cert.KernelIdeal.Val.result_eq,
    h0, h1, h2, h3, h4, h5, h6, h7, h8,
    Cert.Bridge.col_eq, Cert.Bridge.col_eq, Cert.Bridge.row64_eq, Cert.Bridge.row64_eq, Cert.Bridge.row16_eq,
    Cert.Bridge.agg64_eq, Cert.Bridge.agg16_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
